-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x100 : Shape := ⟨2, ![128, 100]⟩
abbrev S100 : Shape := ⟨1, ![100]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x100 : S_.BroadcastsInDim S128x100 (![] : Fin 0 → Fin S128x100.rank)
  reducesTo_S128x100_S_d0_1 : S128x100.ReducesTo [0, 1] S_
  bcast_S_S100 : S_.BroadcastsInDim S100 (![] : Fin 0 → Fin S100.rank)
  reducesTo_S100_S_d0 : S100.ReducesTo [0] S_

variable [Facts]

def fn_part1 {F : FTy → Type} [FloatOps F] (main_arg5 : FVec F S100 .f32) (main_v13 : IVec S_ 1) (main_v16 : IVec S128x100 1) : IVec S_ 1 :=
  let main_c_5 : IVec S_ 1 := constantI S_ 1 1#1
  let main_v17 : IVec S_ 1 := (fun x v => Host.reduce IntOp.andi x v reducesTo_S128x100_S_d0_1 h_S_) main_v16 main_c_5
  let main_v18 : IVec S_ 1 := andi main_v13 main_v17
  let main_v19 : FVec F S100 .f32 := Host.absf main_arg5
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x128 .f32) (main_arg3 : FVec F S128 .f32) (main_arg4 : FVec F S128x100 .f32) (main_arg5 : FVec F S100 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x100 .f32 := Host.absf main_arg4
  let main_cst_4 : FVec F S_ .f32 := constant S_ .f32 0x7F800000#32
  let main_v15 : FVec F S128x100 .f32 := broadcastInDim S128x100 ![] bcast_S_S128x100 main_cst_4
  let main_v16 : IVec S128x100 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x100 : Shape := ⟨2, ![128, 100]⟩
abbrev S100 : Shape := ⟨1, ![100]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S4000x512 : Shape := ⟨2, ![4000, 512]⟩
abbrev S4000x128 : Shape := ⟨2, ![4000, 128]⟩
abbrev S1700000x128 : Shape := ⟨2, ![1700000, 128]⟩
abbrev S1x128 : Shape := ⟨2, ![1, 128]⟩
abbrev S100000x100 : Shape := ⟨2, ![100000, 100]⟩
abbrev S4000x100 : Shape := ⟨2, ![4000, 100]⟩
abbrev S1700000x100 : Shape := ⟨2, ![1700000, 100]⟩
abbrev S1x100 : Shape := ⟨2, ![1, 100]⟩
abbrev S4000 : Shape := ⟨1, ![4000]⟩
abbrev S4000x1 : Shape := ⟨2, ![4000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x100, .f32⟩
  | .hbm, ⟨5, _⟩ => ⟨S100, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x100, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x100, .f32⟩
  | .hbm, ⟨75, _⟩ => ⟨S1700000x1, .f32⟩
  | .hbm, ⟨76, _⟩ => ⟨S1700000x100, .f32⟩
  | .hbm, ⟨77, _⟩ => ⟨S1700000x100, .f32⟩
  | .hbm, ⟨78, _⟩ => ⟨S_, .f32⟩
  | .hbm, ⟨79, _⟩ => ⟨S100000x100, .f32⟩
  | .hbm, ⟨80, _⟩ => ⟨S1700000x1, .i32⟩
  | .hbm, ⟨81, _⟩ => ⟨S100000x100, .f32⟩
  | .hbm, ⟨82, _⟩ => ⟨S1x100, .f32⟩
  | .hbm, ⟨83, _⟩ => ⟨S100000x100, .f32⟩
  | .local _ .vmem, ⟨0, _⟩ => ⟨S4000x512, .f32⟩
  | .local _ .vmem, ⟨1, _⟩ => ⟨S4000x512, .f32⟩
  | .local _ .vmem, ⟨2, _⟩ => ⟨S512x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x100, .f32⟩
  | .local _ .vmem, ⟨13, _⟩ => ⟨S4000x100, .f32⟩
  | .local _ .vmem, ⟨14, _⟩ => ⟨S4000x100, .f32⟩
  | .local _ .vmem, ⟨15, _⟩ => ⟨S4000x100, .f32⟩
  | .local _ .vmem, ⟨16, _⟩ => ⟨S4000x100, .f32⟩
  | .local _ .vmem, ⟨17, _⟩ => ⟨S1x100, .f32⟩
  | .local _ .vmem, ⟨18, _⟩ => ⟨S4000x100, .f32⟩
  | .local _ .vmem, ⟨19, _⟩ => ⟨S4000x100, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x100 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x100 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x100 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x100 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x100 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S4000x128_S4000x128_0_0 : ∀ a, (![0, 0] : Fin 2 → Nat) a + S4000x128.size a ≤ S4000x128.size a
  h_S4000x128 : 0 < S4000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x100_S128x100_0_0 : ∀ a, (![0, 0] : Fin 2 → Nat) a + S128x100.size a ≤ S128x100.size a
  h_S128x100 : 0 < S128x100.numel
  inb_S4000x100_S4000x100_0_0 : ∀ a, (![0, 0] : Fin 2 → Nat) a + S4000x100.size a ≤ S4000x100.size a
  h_S4000x100 : 0 < S4000x100.numel
  bcast_S1700000x1_S1700000x100_0_1 : S1700000x1.BroadcastsInDim S1700000x100 (![0, 1] : Fin 2 → Fin S1700000x100.rank)
  bcast_S_S100000x100 : S_.BroadcastsInDim S100000x100 (![] : Fin 0 → Fin S100000x100.rank)
  shapeCasts_S100_S1x100 : S100.ShapeCasts S1x100
  shapeCasts_S4000x100_S4000x100 : S4000x100.ShapeCasts S4000x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S4000x100 : S1x100.Broadcasts S4000x100
  reduces_S4000x100_S4000 : S4000x100.Reduces [1] S4000
  shapeCasts_S4000_S4000x1 : S4000.ShapeCasts S4000x1
  broadcasts_S4000x1_S4000x100 : S4000x1.Broadcasts S4000x100
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x512_S512x128_S4000x128_1_0_0_1_n_n_wf : DotDims.WF S4000x512 S512x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x100_S4000x100_1_0_0_1_n_n_wf : DotDims.WF S4000x128 S128x100 S4000x100 [1] [0] [0] [1] [] []
  gather_S100000x100_S1700000x1_S1700000x100_1_0_n_n_0_1_1100_wf : GatherDims.WF S100000x100 S1700000x1 S1700000x100 [1] [0] [] [0] [] 1 ![1, 100]
  scatter_S100000x100_S1700000x1_S1700000x100_1_0_0_1_wf : ScatterDims.WF S100000x100 S1700000x1 S1700000x100 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x100.size a ≤ S128x100.size a
  hwx2_1 : ∀ i : grid2.Coords, EltTy.bits .f32 = 32 ∨ (Rect.block (s := S128x100) S128x100.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x100.size a ≤ S100000x100.size a
  hwx2_2 : ∀ i : grid2.Coords, EltTy.bits .f32 = 32 ∨ (Rect.block (s := S100000x100) S4000x100.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x100.size a ≤ S100000x100.size a
  hwx3_0 : ∀ i : grid3.Coords, EltTy.bits .f32 = 32 ∨ (Rect.block (s := S100000x100) S4000x100.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x100.size a ≤ S1x100.size a
  hwx3_1 : ∀ i : grid3.Coords, EltTy.bits .f32 = 32 ∨ (Rect.block (s := S1x100) S1x100.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x100.size a ≤ S100000x100.size a
  hwx3_2 : ∀ i : grid3.Coords, EltTy.bits .f32 = 32 ∨ (Rect.block (s := S100000x100) S4000x100.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x100_S4000x100_1_0_0_1_n_n : DotDims S4000x128 S128x100 S4000x100 where
  lhsContracting := [1]
  rhsContracting := [0]
  lhsNonContracting := [0]
  rhsNonContracting := [1]
  lhsBatch := []
  rhsBatch := []
  wf := dot_S4000x128_S128x100_S4000x100_1_0_0_1_n_n_wf
def gather_S100000x100_S1700000x1_S1700000x100_1_0_n_n_0_1_1100 : GatherDims S100000x100 S1700000x1 S1700000x100 where
  offsetDims := [1]
  collapsedSliceDims := [0]
  operandBatchingDims := []
  startIndicesBatchingDims := []
  startIndexMap := [0]
  indexVectorDim := 1
  sliceSizes := ![1, 100]
  wf := gather_S100000x100_S1700000x1_S1700000x100_1_0_n_n_0_1_1100_wf
def scatter_S100000x100_S1700000x1_S1700000x100_1_0_0_1 : ScatterDims S100000x100 S1700000x1 S1700000x100 where
  updateWindowDims := [1]
  insertedWindowDims := [0]
  scatterDimsToOperandDims := [0]
  indexVectorDim := 1
  wf := scatter_S100000x100_S1700000x1_S1700000x100_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x100.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S4000x100.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S4000x100.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x100.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S4000x100.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x100 : Shape := ⟨2, ![128, 100]⟩
abbrev S100 : Shape := ⟨1, ![100]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x100 : Shape := ⟨2, ![100000, 100]⟩
abbrev S1700000x100 : Shape := ⟨2, ![1700000, 100]⟩
abbrev S1x100 : Shape := ⟨2, ![1, 100]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x100, .f32⟩
  | .hbm, ⟨5, _⟩ => ⟨S100, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x100, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x100, .f32⟩
  | .hbm, ⟨79, _⟩ => ⟨S1700000x1, .f32⟩
  | .hbm, ⟨80, _⟩ => ⟨S1700000x100, .f32⟩
  | .hbm, ⟨81, _⟩ => ⟨S1700000x100, .f32⟩
  | .hbm, ⟨82, _⟩ => ⟨S_, .f32⟩
  | .hbm, ⟨83, _⟩ => ⟨S100000x100, .f32⟩
  | .hbm, ⟨84, _⟩ => ⟨S1700000x1, .i32⟩
  | .hbm, ⟨85, _⟩ => ⟨S100000x100, .f32⟩
  | .hbm, ⟨86, _⟩ => ⟨S1x100, .f32⟩
  | .hbm, ⟨87, _⟩ => ⟨S100000x100, .f32⟩
  | .hbm, ⟨88, _⟩ => ⟨S100000x100, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x100, .f32⟩
  | .hbm, ⟨96, _⟩ => ⟨S100000x100, .f32⟩
  | .hbm, ⟨97, _⟩ => ⟨S100000x100, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x100, .f32⟩
  | .hbm, ⟨103, _⟩ => ⟨S100000x100, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x100_0_1 : S1700000x1.BroadcastsInDim S1700000x100 (![0, 1] : Fin 2 → Fin S1700000x100.rank)
  bcast_S_S100000x100 : S_.BroadcastsInDim S100000x100 (![] : Fin 0 → Fin S100000x100.rank)
  bcast_S100_S1x100_1 : S100.BroadcastsInDim S1x100 (![1] : Fin 1 → Fin S1x100.rank)
  bcast_S1x100_S100000x100_0_1 : S1x100.BroadcastsInDim S100000x100 (![0, 1] : Fin 2 → Fin S100000x100.rank)
  reducesTo_S100000x100_S100000_d1 : S100000x100.ReducesTo [1] S100000
  h_S_ : 0 < S_.numel
  bcast_S100000_S100000x1_0 : S100000.BroadcastsInDim S100000x1 (![0] : Fin 1 → Fin S100000x1.rank)
  bcast_S100000x1_S100000x100_0_1 : S100000x1.BroadcastsInDim S100000x100 (![0, 1] : Fin 2 → Fin S100000x100.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x128_S100000x128_1_0_0_1_n_n_wf : DotDims.WF S100000x512 S512x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x100_S100000x100_1_0_0_1_n_n_wf : DotDims.WF S100000x128 S128x100 S100000x100 [1] [0] [0] [1] [] []
  gather_S100000x100_S1700000x1_S1700000x100_1_0_n_n_0_1_1100_wf : GatherDims.WF S100000x100 S1700000x1 S1700000x100 [1] [0] [] [0] [] 1 ![1, 100]
  scatter_S100000x100_S1700000x1_S1700000x100_1_0_0_1_wf : ScatterDims.WF S100000x100 S1700000x1 S1700000x100 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x100_S100000x100_1_0_0_1_n_n : DotDims S100000x128 S128x100 S100000x100 where
  lhsContracting := [1]
  rhsContracting := [0]
  lhsNonContracting := [0]
  rhsNonContracting := [1]
  lhsBatch := []
  rhsBatch := []
  wf := dot_S100000x128_S128x100_S100000x100_1_0_0_1_n_n_wf
def gather_S100000x100_S1700000x1_S1700000x100_1_0_n_n_0_1_1100 : GatherDims S100000x100 S1700000x1 S1700000x100 where
  offsetDims := [1]
  collapsedSliceDims := [0]
  operandBatchingDims := []
  startIndicesBatchingDims := []
  startIndexMap := [0]
  indexVectorDim := 1
  sliceSizes := ![1, 100]
  wf := gather_S100000x100_S1700000x1_S1700000x100_1_0_n_n_0_1_1100_wf
def scatter_S100000x100_S1700000x1_S1700000x100_1_0_0_1 : ScatterDims S100000x100 S1700000x1 S1700000x100 where
  updateWindowDims := [1]
  insertedWindowDims := [0]
  scatterDimsToOperandDims := [0]
  indexVectorDim := 1
  wf := scatter_S100000x100_S1700000x1_S1700000x100_1_0_0_1_wf

class Facts : Prop extends Facts₀ where

variable [Facts]
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.Spec.lean ====
/-
  The mathematics both programs compute, written once over plain index functions on the extended reals.

  A row's log-softmax: with M the maximum of the row's entries (taken from -∞) the entry at column q is
  (v q - M) - log (∑ j, exp (v j - M)). Both programs form exactly this expression: the shifted entries, the
  exponentials summed along the row, the logarithm of the sum subtracted from the shifted entry.

  A layer's affine step with a rectifier: max (a + b) 0, entry by entry.

  A matrix product: entry (p, q) of x · w is ∑ κ, x (p, κ) · w (κ, q).
-/
import Idealize.ShloMosaic.Lib.ValueIdx
import Idealize.ShloMosaic.PureOps.Ideal

noncomputable section

namespace Cert.Spec

open Idealize.ShloMosaic Idealize.ShloMosaic.ValueIdx

/-- The maximum of a row's entries, folded from -∞ (the f32 pattern 0xFF800000 read as an extended real). -/
def rowMax {n : ℕ} (v : Fin n → EReal) : EReal :=
  (Finset.univ : Finset (Fin n)).fold max (Ideal.ofBits .f32 0xFF800000#32) v

/-- The log-softmax of a row, at column q. -/
def lsmRow {n : ℕ} (v : Fin n → EReal) (q : Fin n) : EReal :=
  (v q - rowMax v) - Ideal.log (∑ j : Fin n, Ideal.exp (v j - rowMax v))

/-- The matrix product x · w at entry (p, q). -/
def mmAt {a k b : ℕ} (x : (⟨2, ![a, k]⟩ : Shape).Idx → EReal) (w : (⟨2, ![k, b]⟩ : Shape).Idx → EReal)
    (p : Fin a) (q : Fin b) : EReal :=
  ∑ κ : Fin k, x (ix2 p κ) * w (ix2 κ q)

end Cert.Spec

end
-- ==== Proof.Region0.lean ====
/-
  The first kernel region: the feature matrix times the first weight matrix, twenty-five row blocks of 4000 rows
  each against the whole weight matrix.

  A grid point t stages rows 4000·t … 4000·t + 3999 of the left operand and the whole right operand, forms the
  product of the two staged blocks into a zero accumulator, and writes the [4000, 128] result back to the same rows
  of the output. At the ideal values the narrowing of both operands before the product is the identity, so the
  entry (p, q) of a block's product is ∑ κ, x (p, κ) · w (κ, q) over the block's own rows. Block t of the output is
  therefore block t of ONE function of the two operand arrays, the matrix product, and the twenty-five blocks
  tile the output's rows: the output array ends holding the whole product.
-/
import proofs.«111680_j377957122204_1_alg».proof.Proof.Gen.KernelIdeal.Frame
import proofs.«111680_j377957122204_1_alg».proof.Proof.LibPlainDot
import proofs.«111680_j377957122204_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The product record of the region's body is a plain [4000, 512] · [512, 128] product. -/
theorem plain : Cert.PlainDot.Plain dot_S4000x512_S512x128_S4000x128_1_0_0_1_n_n := ⟨rfl, rfl, rfl, rfl, rfl, rfl⟩

/-- The body's arithmetic at an entry of its block: the product of the two staged blocks. -/
theorem pay_apply (x : Vec Ideal S4000x512 .f32) (w : Vec Ideal S512x128 .f32) (p : Fin 4000) (q : Fin 128) :
    k0_pay1 (F := Ideal) x w (ix2 p q) = Cert.Spec.mmAt (a := 4000) (k := 512) (b := 128) x w p q := by
  unfold k0_pay1
  exact Cert.PlainDot.matmul_zero_apply plain rfl rfl none _ _ p q

/-- The whole product of the two operand arrays, index by index. -/
def G (A : S100000x512.Idx → EReal) (B : S512x128.Idx → EReal) : S100000x128.Idx → EReal :=
  fun i => Cert.Spec.mmAt (a := 100000) (k := 512) (b := 128) A B ⟨(i 0).val, idx2_lt0 i⟩ ⟨(i 1).val, idx2_lt1 i⟩

theorem hz : (![0, 0] : Fin 2 → Nat) = fun _ => 0 := funext fun a => by fin_cases a <;> rfl

/-- The printed index maps over the grid: the left operand's and the output's blocks move down the rows with the
    point, the right operand's block stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The row of the array that row p of point t's block is. -/
def rowAt (t : Fin cfg0.N) (p : Fin 4000) : Fin 100000 :=
  ⟨t.val * 4000 + p.val, by have ht : t.val < 25 := N_0 ▸ t.isLt; have := p.isLt; omega⟩

/-- The left operand's block at point t holds rows 4000·t … of the array. -/
theorem read_lhs (c : Dev nD) (t : Fin cfg0.N) (p : Fin 4000) (κ : Fin 512) :
    iblk0 V c 0 t (ix2 p κ) = V c main_arg0 (ix2 (rowAt t p) κ) := by
  obtain ⟨e0, e1, -, -, -, -⟩ := idx_facts t
  show V c main_arg0 (((cfg0.win 0).blk t).view.emb (ix2 p κ)) = V c main_arg0 (ix2 (rowAt t p) κ)
  refine congrArg (V c main_arg0) (funext fun a => Fin.ext ?_)
  match a with
  | ⟨0, _⟩ => show win0_0.index t (0 : Fin 2) * 4000 + 1 * p.val = t.val * 4000 + p.val; omega
  | ⟨1, _⟩ => show win0_0.index t (1 : Fin 2) * 512 + 1 * κ.val = κ.val; omega

/-- The right operand's block is the whole array at every point. -/
theorem read_rhs (c : Dev nD) (t : Fin cfg0.N) (κ : Fin 512) (q : Fin 128) :
    iblk0 V c 1 t (ix2 κ q) = V c main_arg2 (ix2 κ q) := by
  obtain ⟨-, -, e2, e3, -, -⟩ := idx_facts t
  show V c main_arg2 (((cfg0.win 1).blk t).view.emb (ix2 κ q)) = V c main_arg2 (ix2 κ q)
  refine congrArg (V c main_arg2) (funext fun a => Fin.ext ?_)
  match a with
  | ⟨0, _⟩ => show win0_1.index t (0 : Fin 2) * 512 + 1 * κ.val = κ.val; omega
  | ⟨1, _⟩ => show win0_1.index t (1 : Fin 2) * 128 + 1 * q.val = q.val; omega

/-- What point t writes back is block t of the whole product. -/
theorem flushed_eq (c : Dev nD) (t : Fin cfg0.N) :
    (dat0 (F := Ideal) V c).flushed 2 t
      = ((cfg0.win 2).blk t).view.read (Elt Ideal) (G (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S4000x512) hz, View.ld_unit_zero (S := S512x128) hz]
  obtain ⟨-, -, -, -, e4, e5⟩ := idx_facts t
  funext j
  obtain ⟨p, q, rfl⟩ : ∃ (p : Fin 4000) (q : Fin 128), j = ix2 p q := ⟨j 0, j 1, eq_ix2 j⟩
  show k0_pay1 (F := Ideal) (iblk0 V c 0 t) (iblk0 V c 1 t) (ix2 p q)
    = G (V c main_arg0) (V c main_arg2) (((cfg0.win 2).blk t).view.emb (ix2 p q))
  refine (pay_apply _ _ p q).trans ?_
  have hrow : (⟨((((cfg0.win 2).blk t).view.emb (ix2 p q)) 0).val, idx2_lt0 _⟩ : Fin 100000) = rowAt t p :=
    Fin.ext (by show win0_2.index t (0 : Fin 2) * 4000 + 1 * p.val = t.val * 4000 + p.val; omega)
  have hcol : (⟨((((cfg0.win 2).blk t).view.emb (ix2 p q)) 1).val, idx2_lt1 _⟩ : Fin 128) = q :=
    Fin.ext (by show win0_2.index t (1 : Fin 2) * 128 + 1 * q.val = q.val; omega)
  unfold G
  rw [hrow, hcol]
  unfold Cert.Spec.mmAt
  exact Finset.sum_congr rfl fun κ _ => congrArg₂ (· * ·) (read_lhs V c t p κ) (read_rhs V c t κ q)

/-- An index of the output is in point t's block iff each coordinate is in the block's range on its axis. -/
theorem mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v30).slice (win0_2.rect t)).set ↔ _
  rw [View.set_slice_whole, Rect.mem_set_unit]
  exact Iff.rfl

/-- Every index of the output lies in the block of the point its row falls in. -/
theorem cover (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  let t : Fin cfg0.N := ⟨(i 0).val / 4000, by rw [show cfg0.N = 25 from N_0]; omega⟩
  obtain ⟨-, -, -, -, e4, e5⟩ := idx_facts t
  have ht : t.val = (i 0).val / 4000 := rfl
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- The output array after the region: the whole product of the two operand arrays as the region finds them. -/
theorem arr (c : Dev nD) :
    (dat0 (F := Ideal) V c).arrAt 2 cfg0.N = G (V c main_arg0) (V c main_arg2) :=
  (dat0 (F := Ideal) V c).arrAt_eq_of_cover 2 (G (V c main_arg0) (V c main_arg2)) (fun t _ => flushed_eq V c t) cover

end Cert.KernelIdeal.Reg0

end
-- ==== Proof.Region1.lean ====
/-
  The second kernel region: the first layer's bias and rectifier, twenty-five row blocks of 4000 rows each.

  A grid point t stages rows 4000·t … 4000·t + 3999 of the aggregated features and the whole [1, 128] bias row,
  adds the bias row to every staged row and takes the maximum with 0, entry by entry, and writes the [4000, 128]
  result back to the same rows of the output. Block t of the output is therefore block t of ONE function of the
  two operand arrays, (i, j) ↦ max (a (i, j) + b (0, j)) 0, and the twenty-five blocks tile the output's rows: the
  output array ends holding that function everywhere.
-/
import proofs.«111680_j377957122204_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The body's arithmetic at an entry of its block: the staged entry plus the bias of its column, cut off below at 0. -/
theorem pay_apply (x : Vec Ideal S4000x128 .f32) (b : Vec Ideal S1x128 .f32) (p : Fin 4000) (q : Fin 128) :
    k1_pay1 (F := Ideal) x b (ix2 p q) = max (x (ix2 p q) + b (ix2 (0 : Fin 1) q)) 0 := by
  unfold k1_pay1
  rw [shapeCast_self, shapeCast_self]
  show max (x (ix2 p q) + broadcastTo S4000x128 b broadcasts_S1x128_S4000x128 (ix2 p q)) (Ideal.ofBits .f32 0x00000000#32) = _
  rw [broadcastTo_1b_ab_apply, Ideal.ofBits_zero_f32]

/-- The biased, rectified array, index by index. -/
def G (A : S100000x128.Idx → EReal) (B : S1x128.Idx → EReal) : S100000x128.Idx → EReal :=
  fun i => max (A i + B (ix2 (0 : Fin 1) (⟨(i 1).val, idx2_lt1 i⟩ : Fin 128))) 0

theorem hz : (![0, 0] : Fin 2 → Nat) = fun _ => 0 := funext fun a => by fin_cases a <;> rfl

/-- The printed index maps over the grid: the features' and the output's blocks move down the rows with the point,
    the bias row's block stays. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The features' block at point t and the output's block at point t sit at the same rows of their arrays. -/
theorem emb_in_eq_out (t : Fin cfg1.N) (j : S4000x128.Idx) :
    ((cfg1.win 0).blk t).view.emb j = ((cfg1.win 2).blk t).view.emb j := by
  obtain ⟨e0, e1, -, -, e4, e5⟩ := idx_facts t
  funext a; apply Fin.ext
  match a with
  | ⟨0, _⟩ => show win1_0.index t (0 : Fin 2) * 4000 + 1 * (j 0).val = win1_2.index t (0 : Fin 2) * 4000 + 1 * (j 0).val; omega
  | ⟨1, _⟩ => show win1_0.index t (1 : Fin 2) * 128 + 1 * (j 1).val = win1_2.index t (1 : Fin 2) * 128 + 1 * (j 1).val; omega

/-- The features' block at point t, read at an entry, is the array at the output block's entry. -/
theorem read_feat (c : Dev nD) (t : Fin cfg1.N) (j : S4000x128.Idx) :
    iblk1 V c 0 t j = V c main_v43 (((cfg1.win 2).blk t).view.emb j) := by
  show V c main_v43 (((cfg1.win 0).blk t).view.emb j) = V c main_v43 (((cfg1.win 2).blk t).view.emb j)
  exact congrArg (V c main_v43) (emb_in_eq_out t j)

/-- The bias row's block is the whole row at every point. -/
theorem read_bias (c : Dev nD) (t : Fin cfg1.N) (q : Fin 128) :
    iblk1 V c 1 t (ix2 (0 : Fin 1) q) = V c main_v44 (ix2 (0 : Fin 1) q) := by
  obtain ⟨-, -, e2, e3, -, -⟩ := idx_facts t
  show V c main_v44 (((cfg1.win 1).blk t).view.emb (ix2 (0 : Fin 1) q)) = V c main_v44 (ix2 (0 : Fin 1) q)
  refine congrArg (V c main_v44) (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-- What point t writes back is block t of the biased, rectified array. -/
theorem flushed_eq (c : Dev nD) (t : Fin cfg1.N) :
    (dat1 (F := Ideal) V c).flushed 2 t
      = ((cfg1.win 2).blk t).view.read (Elt Ideal) (G (V c main_v43) (V c main_v44)) := by
  show (cfg1.win 2).cut (grid1.coords t) ((dat1 (F := Ideal) V c).after 2 t) = _
  rw [after1_2]
  unfold out1_2
  rw [View.canon_unit_zero hz]
  simp only [View.ld_unit_zero (S := S4000x128) hz, View.ld_unit_zero (S := S1x128) hz]
  obtain ⟨-, -, -, -, e4, e5⟩ := idx_facts t
  funext j
  obtain ⟨p, q, rfl⟩ : ∃ (p : Fin 4000) (q : Fin 128), j = ix2 p q := ⟨j 0, j 1, eq_ix2 j⟩
  show k1_pay1 (F := Ideal) (iblk1 V c 0 t) (iblk1 V c 1 t) (ix2 p q)
    = G (V c main_v43) (V c main_v44) (((cfg1.win 2).blk t).view.emb (ix2 p q))
  refine (pay_apply _ _ p q).trans ?_
  have hcol : (⟨((((cfg1.win 2).blk t).view.emb (ix2 p q)) 1).val, idx2_lt1 _⟩ : Fin 128) = q :=
    Fin.ext (by show win1_2.index t (1 : Fin 2) * 128 + 1 * q.val = q.val; omega)
  unfold G
  rw [hcol, read_bias V c t q, read_feat V c t (ix2 p q)]

/-- An index of the output is in point t's block iff each coordinate is in the block's range on its axis. -/
theorem mem_blk (t : Fin cfg1.N) (i : S100000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v45).slice (win1_2.rect t)).set ↔ _
  rw [View.set_slice_whole, Rect.mem_set_unit]
  exact Iff.rfl

/-- Every index of the output lies in the block of the point its row falls in. -/
theorem cover (i : S100000x128.Idx) :
    ∃ t : Fin cfg1.N, (cfg1.win 2).flush t = true ∧ i ∈ ((cfg1.win 2).blk t).view.set := by
  have hi0 : (i 0).val < 100000 := idx2_lt0 i
  have hi1 : (i 1).val < 128 := idx2_lt1 i
  let t : Fin cfg1.N := ⟨(i 0).val / 4000, by rw [show cfg1.N = 25 from N_1]; omega⟩
  obtain ⟨-, -, -, -, e4, e5⟩ := idx_facts t
  have ht : t.val = (i 0).val / 4000 := rfl
  refine ⟨t, flush1_2 t, ?_⟩
  rw [mem_blk]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 128 ≤ (i 1).val ∧ (i 1).val < win1_2.index t (1 : Fin 2) * 128 + 128; omega

/-- The output array after the region: the biased, rectified array of the two operand arrays as the region finds them. -/
theorem arr (c : Dev nD) :
    (dat1 (F := Ideal) V c).arrAt 2 cfg1.N = G (V c main_v43) (V c main_v44) :=
  (dat1 (F := Ideal) V c).arrAt_eq_of_cover 2 (G (V c main_v43) (V c main_v44)) (fun t _ => flushed_eq V c t) cover

end Cert.KernelIdeal.Reg1

end
-- ==== Proof.Region2.lean ====
/-
  The third kernel region: the hidden features times the second weight matrix, twenty-five row blocks of 4000 rows
  each against the whole weight matrix.

  A grid point t stages rows 4000·t … 4000·t + 3999 of the hidden features and the whole [128, 100] weight matrix,
  forms the product of the two staged blocks into a zero accumulator, and writes the [4000, 100] result back to the
  same rows of the output. At the ideal values the narrowing of both operands before the product is the identity,
  so the entry (p, q) of a block's product is ∑ κ, h (p, κ) · w (κ, q) over the block's own rows. Block t of the
  output is block t of the whole matrix product, and the twenty-five blocks tile the output's rows.
-/
import proofs.«111680_j377957122204_1_alg».proof.Proof.Gen.KernelIdeal.Frame
import proofs.«111680_j377957122204_1_alg».proof.Proof.LibPlainDot
import proofs.«111680_j377957122204_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The product record of the region's body is a plain [4000, 128] · [128, 100] product. -/
theorem plain : Cert.PlainDot.Plain dot_S4000x128_S128x100_S4000x100_1_0_0_1_n_n := ⟨rfl, rfl, rfl, rfl, rfl, rfl⟩

/-- The body's arithmetic at an entry of its block: the product of the two staged blocks. -/
theorem pay_apply (x : Vec Ideal S4000x128 .f32) (w : Vec Ideal S128x100 .f32) (p : Fin 4000) (q : Fin 100) :
    k2_pay1 (F := Ideal) x w (ix2 p q) = Cert.Spec.mmAt (a := 4000) (k := 128) (b := 100) x w p q := by
  unfold k2_pay1
  simp only [shapeCast_self]
  exact Cert.PlainDot.matmul_zero_apply plain rfl rfl none _ _ p q

/-- The whole product of the two operand arrays, index by index. -/
def G (A : S100000x128.Idx → EReal) (B : S128x100.Idx → EReal) : S100000x100.Idx → EReal :=
  fun i => Cert.Spec.mmAt (a := 100000) (k := 128) (b := 100) A B ⟨(i 0).val, idx2_lt0 i⟩ ⟨(i 1).val, idx2_lt1 i⟩

theorem hz : (![0, 0] : Fin 2 → Nat) = fun _ => 0 := funext fun a => by fin_cases a <;> rfl

/-- The printed index maps over the grid: the left operand's and the output's blocks move down the rows with the
    point, the right operand's block stays. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- The row of the array that row p of point t's block is. -/
def rowAt (t : Fin cfg2.N) (p : Fin 4000) : Fin 100000 :=
  ⟨t.val * 4000 + p.val, by have ht : t.val < 25 := N_2 ▸ t.isLt; have := p.isLt; omega⟩

/-- The left operand's block at point t holds rows 4000·t … of the array. -/
theorem read_lhs (c : Dev nD) (t : Fin cfg2.N) (p : Fin 4000) (κ : Fin 128) :
    iblk2 V c 0 t (ix2 p κ) = V c main_v45 (ix2 (rowAt t p) κ) := by
  obtain ⟨e0, e1, -, -, -, -⟩ := idx_facts t
  show V c main_v45 (((cfg2.win 0).blk t).view.emb (ix2 p κ)) = V c main_v45 (ix2 (rowAt t p) κ)
  refine congrArg (V c main_v45) (funext fun a => Fin.ext ?_)
  match a with
  | ⟨0, _⟩ => show win2_0.index t (0 : Fin 2) * 4000 + 1 * p.val = t.val * 4000 + p.val; omega
  | ⟨1, _⟩ => show win2_0.index t (1 : Fin 2) * 128 + 1 * κ.val = κ.val; omega

/-- The right operand's block is the whole array at every point. -/
theorem read_rhs (c : Dev nD) (t : Fin cfg2.N) (κ : Fin 128) (q : Fin 100) :
    iblk2 V c 1 t (ix2 κ q) = V c main_arg4 (ix2 κ q) := by
  obtain ⟨-, -, e2, e3, -, -⟩ := idx_facts t
  show V c main_arg4 (((cfg2.win 1).blk t).view.emb (ix2 κ q)) = V c main_arg4 (ix2 κ q)
  refine congrArg (V c main_arg4) (funext fun a => Fin.ext ?_)
  match a with
  | ⟨0, _⟩ => show win2_1.index t (0 : Fin 2) * 128 + 1 * κ.val = κ.val; omega
  | ⟨1, _⟩ => show win2_1.index t (1 : Fin 2) * 100 + 1 * q.val = q.val; omega

/-- What point t writes back is block t of the whole product. -/
theorem flushed_eq (c : Dev nD) (t : Fin cfg2.N) :
    (dat2 (F := Ideal) V c).flushed 2 t
      = ((cfg2.win 2).blk t).view.read (Elt Ideal) (G (V c main_v45) (V c main_arg4)) := by
  show (cfg2.win 2).cut (grid2.coords t) ((dat2 (F := Ideal) V c).after 2 t) = _
  rw [after2_2]
  unfold out2_2
  rw [View.canon_unit_zero hz]
  simp only [View.ld_unit_zero (S := S4000x128) hz, View.ld_unit_zero (S := S128x100) hz]
  obtain ⟨-, -, -, -, e4, e5⟩ := idx_facts t
  funext j
  obtain ⟨p, q, rfl⟩ : ∃ (p : Fin 4000) (q : Fin 100), j = ix2 p q := ⟨j 0, j 1, eq_ix2 j⟩
  show k2_pay1 (F := Ideal) (iblk2 V c 0 t) (iblk2 V c 1 t) (ix2 p q)
    = G (V c main_v45) (V c main_arg4) (((cfg2.win 2).blk t).view.emb (ix2 p q))
  refine (pay_apply _ _ p q).trans ?_
  have hrow : (⟨((((cfg2.win 2).blk t).view.emb (ix2 p q)) 0).val, idx2_lt0 _⟩ : Fin 100000) = rowAt t p :=
    Fin.ext (by show win2_2.index t (0 : Fin 2) * 4000 + 1 * p.val = t.val * 4000 + p.val; omega)
  have hcol : (⟨((((cfg2.win 2).blk t).view.emb (ix2 p q)) 1).val, idx2_lt1 _⟩ : Fin 100) = q :=
    Fin.ext (by show win2_2.index t (1 : Fin 2) * 100 + 1 * q.val = q.val; omega)
  unfold G
  rw [hrow, hcol]
  unfold Cert.Spec.mmAt
  exact Finset.sum_congr rfl fun κ _ => congrArg₂ (· * ·) (read_lhs V c t p κ) (read_rhs V c t κ q)

/-- An index of the output is in point t's block iff each coordinate is in the block's range on its axis. -/
theorem mem_blk (t : Fin cfg2.N) (i : S100000x100.Idx) :
    i ∈ ((cfg2.win 2).blk t).view.set ↔ ∀ a : Fin 2, win2_2.index t a * S4000x100.size a ≤ (i a).val ∧ (i a).val < win2_2.index t a * S4000x100.size a + S4000x100.size a := by
  show i ∈ ((View.whole main_v46).slice (win2_2.rect t)).set ↔ _
  rw [View.set_slice_whole, Rect.mem_set_unit]
  exact Iff.rfl

/-- Every index of the output lies in the block of the point its row falls in. -/
theorem cover (i : S100000x100.Idx) :
    ∃ t : Fin cfg2.N, (cfg2.win 2).flush t = true ∧ i ∈ ((cfg2.win 2).blk t).view.set := by
  have hi0 : (i 0).val < 100000 := idx2_lt0 i
  have hi1 : (i 1).val < 100 := idx2_lt1 i
  let t : Fin cfg2.N := ⟨(i 0).val / 4000, by rw [show cfg2.N = 25 from N_2]; omega⟩
  obtain ⟨-, -, -, -, e4, e5⟩ := idx_facts t
  have ht : t.val = (i 0).val / 4000 := rfl
  refine ⟨t, flush2_2 t, ?_⟩
  rw [mem_blk]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 100 ≤ (i 1).val ∧ (i 1).val < win2_2.index t (1 : Fin 2) * 100 + 100; omega

/-- The output array after the region: the whole product of the two operand arrays as the region finds them. -/
theorem arr (c : Dev nD) :
    (dat2 (F := Ideal) V c).arrAt 2 cfg2.N = G (V c main_v45) (V c main_arg4) :=
  (dat2 (F := Ideal) V c).arrAt_eq_of_cover 2 (G (V c main_v45) (V c main_arg4)) (fun t _ => flushed_eq V c t) cover

end Cert.KernelIdeal.Reg2

end
-- ==== Proof.LsmKernel.lean ====
/-
  The last kernel region's arithmetic read at one index: a bias row added to every row of a block of logits,
  then the row-wise log-softmax of the sum.

  With V (p, j) = x0 (p, j) + x1 (0, j) the biased logits of the block, the kernel forms
    M p        = the maximum over j of V (p, j), folded from -∞                      (a reduction along the row),
    Z (p, j)   = V (p, j) - M p                                                      (M kept as a column and spread),
    L p        = log (∑ j, exp (Z (p, j)))                                           (a second reduction along the row),
    out (p, q) = Z (p, q) - L p,
  which is the specification's log-softmax of the row j ↦ V (p, j) at column q, term for term. The proof reads each
  operation at the index (p, q): the pointwise operations by definition, the two reductions as a fold of max and a
  sum over the row's hundred columns, and the two keepdims layout steps (a vector viewed as a column, a column spread
  over the columns of a matrix) by the row-major position of the index.
-/
import proofs.«111680_j377957122204_1_alg».proof.Proof.Gen.KernelIdeal.Skeleton
import proofs.«111680_j377957122204_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.LsmKernel

open Idealize.ShloMosaic Idealize.ShloMosaic.ValueIdx Cert.KernelIdeal

/-! ## Two keepdims layout steps read at an index -/

section Layout
variable {α : Type}

/-- An `[a]` vector viewed as an `[a, 1]` column reads, at `(i, u)`, the vector at `i`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over the columns of an `[a, b]` matrix reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The stages of the log-softmax, over an arbitrary block of logits -/

/-- The row maxima (folded from -∞), kept as a column and spread across each row. -/
def rowMaxSpread (V : FVec Ideal S4000x100 .f32) : FVec Ideal S4000x100 .f32 :=
  broadcastTo S4000x100
    (shapeCast S4000x1
      (multiReduction (F := Ideal) .maximumf [1] S4000 V 0xFF800000#32 Gen.reduces_S4000x100_S4000 (.inl rfl) rfl)
      Gen.shapeCasts_S4000_S4000x1)
    Gen.broadcasts_S4000x1_S4000x100

/-- The logits with their row's maximum taken off. -/
def shifted (V : FVec Ideal S4000x100 .f32) : FVec Ideal S4000x100 .f32 :=
  subf V (rowMaxSpread V)

/-- The logarithm of each row's sum of exponentials of the shifted logits, kept as a column and spread across the row. -/
def logSumSpread (V : FVec Ideal S4000x100 .f32) : FVec Ideal S4000x100 .f32 :=
  broadcastTo S4000x100
    (log (shapeCast S4000x1
      (multiReduction (F := Ideal) .add [1] S4000 (exp (shifted V)) 0x00000000#32 Gen.reduces_S4000x100_S4000 (.inl rfl) rfl)
      Gen.shapeCasts_S4000_S4000x1))
    Gen.broadcasts_S4000x1_S4000x100

/-- The index the reduction along the row inserts: row `p`, column `k`. -/
theorem lift_row (p : Fin 4000) (k : Fin 100) :
    Gen.reduces_S4000x100_S4000.lift (ix1 p) k = ix2 p k :=
  funext fun c => Fin.ext (by match c with | ⟨0, _⟩ => rfl | ⟨1, _⟩ => rfl)

/-- The maximum along row `p`: the fold of max from -∞ over the row's entries. -/
theorem rowMax_read (V : FVec Ideal S4000x100 .f32) (p : Fin 4000) :
    multiReduction (F := Ideal) .maximumf [1] S4000 V 0xFF800000#32 Gen.reduces_S4000x100_S4000 (.inl rfl) rfl (ix1 p)
      = Cert.Spec.rowMax (fun j : Fin 100 => V (ix2 p j)) := by
  refine (Ideal.multiReduction_maximumf_single V _ Gen.reduces_S4000x100_S4000 (.inl rfl) rfl (ix1 p)).trans ?_
  unfold Cert.Spec.rowMax
  show (Finset.univ : Finset (Fin 100)).fold max (Ideal.ofBits .f32 0xFF800000#32)
      (fun k : Fin 100 => V (Gen.reduces_S4000x100_S4000.lift (ix1 p) k)) = _
  exact congrArg (fun f : Fin 100 → EReal => (Finset.univ : Finset (Fin 100)).fold max (Ideal.ofBits .f32 0xFF800000#32) f)
    (funext fun k => congrArg V (lift_row p k))

/-- The sum along row `p`. -/
theorem rowSum_read (W : FVec Ideal S4000x100 .f32) (p : Fin 4000) :
    multiReduction (F := Ideal) .add [1] S4000 W 0x00000000#32 Gen.reduces_S4000x100_S4000 (.inl rfl) rfl (ix1 p)
      = ∑ j : Fin 100, W (ix2 p j) := by
  refine (Ideal.multiReduction_add_single W _ Gen.reduces_S4000x100_S4000 (.inl rfl) rfl (ix1 p)).trans ?_
  show ∑ k : Fin 100, W (Gen.reduces_S4000x100_S4000.lift (ix1 p) k) = _
  exact Finset.sum_congr rfl fun k _ => congrArg W (lift_row p k)

theorem rowMaxSpread_apply (V : FVec Ideal S4000x100 .f32) (p : Fin 4000) (q : Fin 100) :
    rowMaxSpread V (ix2 p q) = Cert.Spec.rowMax (fun j : Fin 100 => V (ix2 p j)) := by
  unfold rowMaxSpread
  refine (broadcastTo_a1_ab_apply _ Gen.broadcasts_S4000x1_S4000x100 p q).trans ?_
  refine (shapeCast_a_a1_apply _ Gen.shapeCasts_S4000_S4000x1 p (0 : Fin 1)).trans ?_
  exact rowMax_read V p

theorem shifted_apply (V : FVec Ideal S4000x100 .f32) (p : Fin 4000) (q : Fin 100) :
    shifted V (ix2 p q) = V (ix2 p q) - Cert.Spec.rowMax (fun j : Fin 100 => V (ix2 p j)) := by
  unfold shifted
  rw [subf_apply, rowMaxSpread_apply]

theorem logSumSpread_apply (V : FVec Ideal S4000x100 .f32) (p : Fin 4000) (q : Fin 100) :
    logSumSpread V (ix2 p q)
      = Ideal.log (∑ j : Fin 100, Ideal.exp (V (ix2 p j) - Cert.Spec.rowMax (fun j : Fin 100 => V (ix2 p j)))) := by
  unfold logSumSpread
  refine (broadcastTo_a1_ab_apply _ Gen.broadcasts_S4000x1_S4000x100 p q).trans ?_
  show Ideal.log (shapeCast S4000x1 _ Gen.shapeCasts_S4000_S4000x1 (ix2 p (0 : Fin 1))) = _
  refine congrArg Ideal.log ?_
  refine (shapeCast_a_a1_apply _ Gen.shapeCasts_S4000_S4000x1 p (0 : Fin 1)).trans ?_
  refine (rowSum_read _ p).trans ?_
  refine Finset.sum_congr rfl fun j _ => ?_
  show Ideal.exp (shifted V (ix2 p j)) = _
  rw [shifted_apply]

/-- The log-softmax of a block of logits, read at `(p, q)`. -/
theorem logSoftmax_apply (V : FVec Ideal S4000x100 .f32) (p : Fin 4000) (q : Fin 100) :
    subf (shifted V) (logSumSpread V) (ix2 p q) = Cert.Spec.lsmRow (fun j : Fin 100 => V (ix2 p j)) q := by
  rw [subf_apply, shifted_apply, logSumSpread_apply]
  rfl

/-! ## The kernel's payload -/

/-- The biased logits: the bias row added to every row of the block. -/
def biased (x0 : Vec Ideal S4000x100 .f32) (x1 : Vec Ideal S1x100 .f32) : FVec Ideal S4000x100 .f32 :=
  addf (shapeCast S4000x100 x0 Gen.shapeCasts_S4000x100_S4000x100)
    (broadcastTo S4000x100 (shapeCast S1x100 x1 Gen.shapeCasts_S1x100_S1x100) Gen.broadcasts_S1x100_S4000x100)

theorem biased_apply (x0 : Vec Ideal S4000x100 .f32) (x1 : Vec Ideal S1x100 .f32) (p : Fin 4000) (j : Fin 100) :
    biased x0 x1 (ix2 p j) = x0 (ix2 p j) + x1 (ix2 (0 : Fin 1) j) := by
  unfold biased
  rw [addf_apply, shapeCast_self, shapeCast_self]
  exact congrArg (x0 (ix2 p j) + ·) (broadcastTo_1b_ab_apply x1 Gen.broadcasts_S1x100_S4000x100 p j)

/-- The payload is the log-softmax of the biased logits: the two terms unfold to the same sequence of operations. -/
theorem pay3_eq (x0 : Vec Ideal S4000x100 .f32) (x1 : Vec Ideal S1x100 .f32) :
    Cert.KernelIdeal.Gen.k3_pay1 (F := Ideal) x0 x1
      = subf (shifted (biased x0 x1)) (logSumSpread (biased x0 x1)) := rfl

/-- The kernel's payload at `(p, q)` is the log-softmax, at column `q`, of row `p` of the logits plus the bias row. -/
theorem pay3_apply (x0 : Vec Ideal S4000x100 .f32) (x1 : Vec Ideal S1x100 .f32) (p : Fin 4000) (q : Fin 100) :
    Cert.KernelIdeal.Gen.k3_pay1 (F := Ideal) x0 x1 (ix2 p q)
      = Cert.Spec.lsmRow (fun j : Fin 100 => x0 (ix2 p j) + x1 (ix2 (0 : Fin 1) j)) q := by
  rw [pay3_eq, logSoftmax_apply]
  exact congrArg (fun v => Cert.Spec.lsmRow v q) (funext fun j => biased_apply x0 x1 p j)

end Cert.KernelIdeal.LsmKernel

end
-- ==== Proof.Region3.lean ====
/-
  The fourth kernel region: the second layer's bias and the row-wise log-softmax, twenty-five row blocks of 4000
  rows each.

  A grid point t stages rows 4000·t … 4000·t + 3999 of the aggregated class scores and the whole [1, 100] bias
  row, adds the bias row to every staged row, and replaces each row v by its log-softmax: with M the row's maximum,
  (v q - M) - log (∑ j, exp (v j - M)) at column q. A row's result depends on that row alone, and a block holds
  whole rows, so block t of the output is block t of ONE function of the two operand arrays — the log-softmax of
  each biased row — and the twenty-five blocks tile the output's rows.
-/
import proofs.«111680_j377957122204_1_alg».proof.Proof.Gen.KernelIdeal.Frame
import proofs.«111680_j377957122204_1_alg».proof.Proof.LsmKernel
import proofs.«111680_j377957122204_1_alg».proof.Proof.Spec
import Idealize.ShloMosaic.Lib.Pipeline.Value
import Idealize.ShloMosaic.Lib.ValueIdx

set_option maxRecDepth 16384

noncomputable section

namespace Cert.KernelIdeal.Reg3

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The log-softmax of every biased row, index by index. -/
def G (A : S100000x100.Idx → EReal) (B : S1x100.Idx → EReal) : S100000x100.Idx → EReal :=
  fun i => Cert.Spec.lsmRow
    (fun j : Fin 100 => A (ix2 (⟨(i 0).val, idx2_lt0 i⟩ : Fin 100000) j) + B (ix2 (0 : Fin 1) j))
    (⟨(i 1).val, idx2_lt1 i⟩ : Fin 100)

theorem hz : (![0, 0] : Fin 2 → Nat) = fun _ => 0 := funext fun a => by fin_cases a <;> rfl

/-- The printed index maps over the grid: the scores' and the output's blocks move down the rows with the point,
    the bias row's block stays. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- The row of the array that row p of point t's block is. -/
def rowAt (t : Fin cfg3.N) (p : Fin 4000) : Fin 100000 :=
  ⟨t.val * 4000 + p.val, by have ht : t.val < 25 := N_3 ▸ t.isLt; have := p.isLt; omega⟩

/-- The scores' block at point t holds rows 4000·t … of the array. -/
theorem read_feat (c : Dev nD) (t : Fin cfg3.N) (p : Fin 4000) (j : Fin 100) :
    iblk3 V c 0 t (ix2 p j) = V c main_v59 (ix2 (rowAt t p) j) := by
  obtain ⟨e0, e1, -, -, -, -⟩ := idx_facts t
  show V c main_v59 (((cfg3.win 0).blk t).view.emb (ix2 p j)) = V c main_v59 (ix2 (rowAt t p) j)
  refine congrArg (V c main_v59) (funext fun a => Fin.ext ?_)
  match a with
  | ⟨0, _⟩ => show win3_0.index t (0 : Fin 2) * 4000 + 1 * p.val = t.val * 4000 + p.val; omega
  | ⟨1, _⟩ => show win3_0.index t (1 : Fin 2) * 100 + 1 * j.val = j.val; omega

/-- The bias row's block is the whole row at every point. -/
theorem read_bias (c : Dev nD) (t : Fin cfg3.N) (j : Fin 100) :
    iblk3 V c 1 t (ix2 (0 : Fin 1) j) = V c main_v60 (ix2 (0 : Fin 1) j) := by
  obtain ⟨-, -, e2, e3, -, -⟩ := idx_facts t
  show V c main_v60 (((cfg3.win 1).blk t).view.emb (ix2 (0 : Fin 1) j)) = V c main_v60 (ix2 (0 : Fin 1) j)
  refine congrArg (V c main_v60) (funext fun a => Fin.ext ?_)
  match a with
  | ⟨0, _⟩ => show win3_1.index t (0 : Fin 2) * 1 + 1 * 0 = 0; omega
  | ⟨1, _⟩ => show win3_1.index t (1 : Fin 2) * 100 + 1 * j.val = j.val; omega

/-- What point t writes back is block t of the rows' log-softmax. -/
theorem flushed_eq (c : Dev nD) (t : Fin cfg3.N) :
    (dat3 (F := Ideal) V c).flushed 2 t
      = ((cfg3.win 2).blk t).view.read (Elt Ideal) (G (V c main_v59) (V c main_v60)) := by
  show (cfg3.win 2).cut (grid3.coords t) ((dat3 (F := Ideal) V c).after 2 t) = _
  rw [after3_2]
  unfold out3_2
  rw [View.canon_unit_zero hz]
  simp only [View.ld_unit_zero (S := S4000x100) hz, View.ld_unit_zero (S := S1x100) hz]
  obtain ⟨-, -, -, -, e4, e5⟩ := idx_facts t
  funext j
  obtain ⟨p, q, rfl⟩ : ∃ (p : Fin 4000) (q : Fin 100), j = ix2 p q := ⟨j 0, j 1, eq_ix2 j⟩
  show k3_pay1 (F := Ideal) (iblk3 V c 0 t) (iblk3 V c 1 t) (ix2 p q)
    = G (V c main_v59) (V c main_v60) (((cfg3.win 2).blk t).view.emb (ix2 p q))
  refine (Cert.KernelIdeal.LsmKernel.pay3_apply _ _ p q).trans ?_
  have hrow : (⟨((((cfg3.win 2).blk t).view.emb (ix2 p q)) 0).val, idx2_lt0 _⟩ : Fin 100000) = rowAt t p :=
    Fin.ext (by show win3_2.index t (0 : Fin 2) * 4000 + 1 * p.val = t.val * 4000 + p.val; omega)
  have hcol : (⟨((((cfg3.win 2).blk t).view.emb (ix2 p q)) 1).val, idx2_lt1 _⟩ : Fin 100) = q :=
    Fin.ext (by show win3_2.index t (1 : Fin 2) * 100 + 1 * q.val = q.val; omega)
  unfold G
  rw [hrow, hcol]
  refine congrArg (fun v : Fin 100 → EReal => Cert.Spec.lsmRow v q) (funext fun j => ?_)
  exact congrArg₂ (· + ·) (read_feat V c t p j) (read_bias V c t j)

/-- An index of the output is in point t's block iff each coordinate is in the block's range on its axis. -/
theorem mem_blk (t : Fin cfg3.N) (i : S100000x100.Idx) :
    i ∈ ((cfg3.win 2).blk t).view.set ↔ ∀ a : Fin 2, win3_2.index t a * S4000x100.size a ≤ (i a).val ∧ (i a).val < win3_2.index t a * S4000x100.size a + S4000x100.size a := by
  show i ∈ ((View.whole main_v61).slice (win3_2.rect t)).set ↔ _
  rw [View.set_slice_whole, Rect.mem_set_unit]
  exact Iff.rfl

/-- Every index of the output lies in the block of the point its row falls in. -/
theorem cover (i : S100000x100.Idx) :
    ∃ t : Fin cfg3.N, (cfg3.win 2).flush t = true ∧ i ∈ ((cfg3.win 2).blk t).view.set := by
  have hi0 : (i 0).val < 100000 := idx2_lt0 i
  have hi1 : (i 1).val < 100 := idx2_lt1 i
  let t : Fin cfg3.N := ⟨(i 0).val / 4000, by rw [show cfg3.N = 25 from N_3]; omega⟩
  obtain ⟨-, -, -, -, e4, e5⟩ := idx_facts t
  have ht : t.val = (i 0).val / 4000 := rfl
  refine ⟨t, flush3_2 t, ?_⟩
  rw [mem_blk]
  intro a
  match a with
  | ⟨0, _⟩ => show win3_2.index t (0 : Fin 2) * 4000 ≤ (i 0).val ∧ (i 0).val < win3_2.index t (0 : Fin 2) * 4000 + 4000; omega
  | ⟨1, _⟩ => show win3_2.index t (1 : Fin 2) * 100 ≤ (i 1).val ∧ (i 1).val < win3_2.index t (1 : Fin 2) * 100 + 100; omega

/-- The output array after the region: the log-softmax of every biased row of the two operand arrays as the region
    finds them. -/
theorem arr (c : Dev nD) :
    (dat3 (F := Ideal) V c).arrAt 2 cfg3.N = G (V c main_v59) (V c main_v60) :=
  (dat3 (F := Ideal) V c).arrAt_eq_of_cover 2 (G (V c main_v59) (V c main_v60)) (fun t _ => flushed_eq V c t) cover

end Cert.KernelIdeal.Reg3

end
-- ==== Proof.RefStages.lean ====
/-
  The reference program's dense stages are the kernel regions' functions.

  Read one operation at a time, the reference computes its first product as a host matrix product of the two
  argument arrays, adds the first bias (broadcast from [128] over the rows) and cuts off below at 0, and computes its
  second product as a host matrix product of the result with the second weight matrix. At the ideal values a host
  matrix product's entry (p, q) is ∑ κ, l (p, κ) · r (κ, q), which is the kernel's whole product; and the biased,
  rectified array is entry by entry max (a (p, q) + b q) 0, the bias row of the kernel being the [128] bias
  re-laid as [1, 128].
-/
import proofs.«111680_j377957122204_1_alg».proof.Proof.RefRead
import proofs.«111680_j377957122204_1_alg».proof.Proof.LibPlainDot
import proofs.«111680_j377957122204_1_alg».proof.Proof.Spec
import proofs.«111680_j377957122204_1_alg».proof.Proof.Region0
import proofs.«111680_j377957122204_1_alg».proof.Proof.Region1
import proofs.«111680_j377957122204_1_alg».proof.Proof.Region2
import Idealize.ShloMosaic.Lib.ValueIdx
import Idealize.ShloMosaic.Lib.ValueLayout
import Idealize.ShloMosaic.PureOps.Ideal.Laws

noncomputable section

namespace Cert.ReferenceIdeal.RefStages

open Cert.ReferenceIdeal Cert.ReferenceIdeal.ReadP
open Idealize.ShloMosaic Idealize.ShloMosaic.ValueIdx

/-- The first host product is a plain [100000, 512] · [512, 128] product. -/
theorem plain1 : Cert.PlainDot.Plain dot_S100000x512_S512x128_S100000x128_1_0_0_1_n_n := ⟨rfl, rfl, rfl, rfl, rfl, rfl⟩

/-- The second host product is a plain [100000, 128] · [128, 100] product. -/
theorem plain2 : Cert.PlainDot.Plain dot_S100000x128_S128x100_S100000x100_1_0_0_1_n_n := ⟨rfl, rfl, rfl, rfl, rfl, rfl⟩

/-- The reference's first product is the whole product the first kernel region leaves. -/
theorem ref_v30 (x0 : (⟨S100000x512, .f32⟩ : BufTy).Contents (Elt Ideal)) (x2 : (⟨S512x128, .f32⟩ : BufTy).Contents (Elt Ideal)) :
    val_main_v30 (F := Ideal) x0 x2 = Cert.KernelIdeal.Reg0.G x0 x2 := by
  funext i
  obtain ⟨p, q, rfl⟩ : ∃ (p : Fin 100000) (q : Fin 128), i = ix2 p q := ⟨i 0, i 1, eq_ix2 i⟩
  unfold val_main_v30
  refine (Cert.PlainDot.dotGeneral_apply plain1 rfl rfl none x0 x2 p q).trans ?_
  rfl

/-- The reference's biased, rectified array is the one the second kernel region leaves, the bias re-laid as a row. -/
theorem ref_v47 (x0 : (⟨S100000x512, .f32⟩ : BufTy).Contents (Elt Ideal)) (x1 : (⟨S2x1600000, .i32⟩ : BufTy).Contents (Elt Ideal))
    (x2 : (⟨S512x128, .f32⟩ : BufTy).Contents (Elt Ideal)) (x3 : (⟨S128, .f32⟩ : BufTy).Contents (Elt Ideal)) :
    val_main_v47 (F := Ideal) x0 x1 x2 x3
      = Cert.KernelIdeal.Reg1.G (val_main_v43 (F := Ideal) x0 x1 x2)
          (shapeCast Cert.KernelIdeal.S1x128 x3 Cert.KernelIdeal.Gen.shapeCasts_S128_S1x128) := by
  funext i
  obtain ⟨p, q, rfl⟩ : ∃ (p : Fin 100000) (q : Fin 128), i = ix2 p q := ⟨i 0, i 1, eq_ix2 i⟩
  have hL : val_main_v47 (F := Ideal) x0 x1 x2 x3 (ix2 p q)
      = max (val_main_v43 (F := Ideal) x0 x1 x2 (ix2 p q) + x3 (ix1 q)) 0 := by
    rw [val_main_v47_apply, val_main_v46_apply, val_main_v45_apply, val_main_v44_apply, val_main_call1_v0_apply,
      val_main_call1_cst_apply]
    have e : idx_main_v44 (idx_main_v45 (ix2 p q)) = ix1 q := funext fun a => by match a with | ⟨0, _⟩ => rfl
    rw [e]
    simp only [Ideal.maximumf_def, Ideal.addf_def, Ideal.ofBits_def, Ideal.ofBits_zero_f32]
  have hR : Cert.KernelIdeal.Reg1.G (val_main_v43 (F := Ideal) x0 x1 x2)
        (shapeCast Cert.KernelIdeal.S1x128 x3 Cert.KernelIdeal.Gen.shapeCasts_S128_S1x128) (ix2 p q)
      = max (val_main_v43 (F := Ideal) x0 x1 x2 (ix2 p q) + x3 (ix1 q)) 0 := by
    unfold Cert.KernelIdeal.Reg1.G
    rw [shapeCast_a_1a_apply]
  rw [hL, hR]

/-- The reference's second product is the whole product the third kernel region leaves. -/
theorem ref_v48 (x0 : (⟨S100000x512, .f32⟩ : BufTy).Contents (Elt Ideal)) (x1 : (⟨S2x1600000, .i32⟩ : BufTy).Contents (Elt Ideal))
    (x2 : (⟨S512x128, .f32⟩ : BufTy).Contents (Elt Ideal)) (x3 : (⟨S128, .f32⟩ : BufTy).Contents (Elt Ideal))
    (x4 : (⟨S128x100, .f32⟩ : BufTy).Contents (Elt Ideal)) :
    val_main_v48 (F := Ideal) x0 x1 x2 x3 x4 = Cert.KernelIdeal.Reg2.G (val_main_v47 (F := Ideal) x0 x1 x2 x3) x4 := by
  funext i
  obtain ⟨p, q, rfl⟩ : ∃ (p : Fin 100000) (q : Fin 100), i = ix2 p q := ⟨i 0, i 1, eq_ix2 i⟩
  unfold val_main_v48
  generalize val_main_v47 (F := Ideal) x0 x1 x2 x3 = h
  refine (Cert.PlainDot.dotGeneral_apply plain2 rfl rfl none h x4 p q).trans ?_
  rfl

end Cert.ReferenceIdeal.RefStages

end
-- ==== Proof.LsmRef.lean ====
/-
  The reference's last stretch read at one index: the bias added to every row of the logits, then the row-wise
  log-softmax in the guarded form the reference uses.

  With V (p, j) = A (p, j) + b j the biased logits (A the array of logits, kept opaque here), the reference forms
    M₀ p       = the maximum over j of V (p, j), folded from -∞                     (a reduction along the row),
    M p        = max (-∞) (M₀ p)                                                    (a guard that changes nothing:
                                                                                      a fold of max from -∞ is ≥ -∞),
    Z (p, j)   = V (p, j) - M p                                                     (M kept as a column and spread),
    S p        = 0 + ∑ j, exp (Z (p, j))                                            (a reduction along the row from 0),
    out (p, q) = Z (p, q) - log (S p)                                               (log S kept as a column and spread),
  which is the specification's log-softmax of the row j ↦ V (p, j) at column q. Each operation is read at the index by
  its own reading lemma; the index maps of the broadcasts are identified with (p, ·) ↦ p and (p, k) coordinate by
  coordinate.
-/
import proofs.«111680_j377957122204_1_alg».proof.Proof.RefRead
import proofs.«111680_j377957122204_1_alg».proof.Proof.Spec
import Idealize.ShloMosaic.PureOps.Ideal
import Idealize.ShloMosaic.PureOps.Ideal.Laws
import Idealize.ShloMosaic.PureOps.Reduce
import Idealize.ShloMosaic.Lib.ValueIdx
import Mathlib.Data.Finset.Fold

noncomputable section

namespace Cert.ReferenceIdeal.LsmRef

open Idealize.ShloMosaic Idealize.ShloMosaic.ValueIdx Cert.ReferenceIdeal Cert.ReferenceIdeal.Gen Cert.ReferenceIdeal.ReadP

/-! ## Two facts that do not depend on the program's inputs -/

/-- A fold of max from -∞ is at least -∞, so the maximum of -∞ and a row's maximum is the row's maximum. -/
theorem max_init_rowMax {n : ℕ} (v : Fin n → EReal) :
    max (Ideal.ofBits .f32 0xFF800000#32) (Cert.Spec.rowMax v) = Cert.Spec.rowMax v :=
  max_eq_right ((Finset.le_fold_max _).mpr (Or.inl le_rfl))

/-- The index the reduction along the row inserts: row `p`, column `k`. -/
theorem lift_row (h : S100000x100.Reduces [1] S100000) (p : Fin 100000) (k : Fin 100) :
    h.lift (ix1 p) k = ix2 p k :=
  funext fun c => Fin.ext (by match c with | ⟨0, _⟩ => rfl | ⟨1, _⟩ => rfl)

/-- The host's reduction by max along the rows of an array, from -∞, read at row `p`: the row's maximum. -/
theorem hostRowMax_read (Y : S100000x100.Idx → Ideal .f32) (p : Fin 100000) :
    Host.reduce (FloatOps.maximumf (F := Ideal) (φ := .f32)) Y (val_main_call2_cst (F := Ideal))
        reducesTo_S100000x100_S100000_d1 h_S_ (ix1 p)
      = Cert.Spec.rowMax (fun j : Fin 100 => Y (ix2 p j)) := by
  have h : S100000x100.Reduces [1] S100000 := by decide
  refine (Host.reduce_eq_fold_single (FloatOps.maximumf (F := Ideal) (φ := .f32)) Y _
    reducesTo_S100000x100_S100000_d1 h h_S_ (ix1 p)).trans ?_
  unfold Cert.Spec.rowMax
  show (Finset.univ : Finset (Fin 100)).fold max (Ideal.ofBits .f32 0xFF800000#32)
      (fun k : Fin 100 => Y (h.lift (ix1 p) k)) = _
  exact congrArg (fun f : Fin 100 → EReal => (Finset.univ : Finset (Fin 100)).fold max (Ideal.ofBits .f32 0xFF800000#32) f)
    (funext fun k => congrArg Y (lift_row h p k))

/-! ## The stretch, operation by operation -/

section Stretch

variable (x0 : (⟨S100000x512, .f32⟩ : BufTy).Contents (Elt Ideal)) (x1 : (⟨S2x1600000, .i32⟩ : BufTy).Contents (Elt Ideal))
  (x2 : (⟨S512x128, .f32⟩ : BufTy).Contents (Elt Ideal)) (x3 : (⟨S128, .f32⟩ : BufTy).Contents (Elt Ideal))
  (x4 : (⟨S128x100, .f32⟩ : BufTy).Contents (Elt Ideal)) (x5 : (⟨S100, .f32⟩ : BufTy).Contents (Elt Ideal))

/-- The biased logits at `(p, j)`: the logits there plus the bias at `j`. -/
theorem biased_apply (p : Fin 100000) (j : Fin 100) :
    val_main_v64 (F := Ideal) x0 x1 x2 x3 x4 x5 (ix2 p j)
      = val_main_v61 (F := Ideal) x0 x1 x2 x3 x4 (ix2 p j) + x5 (ix1 j) := by
  rw [val_main_v64_apply, val_main_v63_apply, val_main_v62_apply]
  exact congrArg (val_main_v61 (F := Ideal) x0 x1 x2 x3 x4 (ix2 p j) + ·)
    (congrArg x5 (funext fun a => Fin.ext (by match a with | ⟨0, _⟩ => rfl)))

/-- The guarded row maximum at row `p`. -/
theorem rowMaxCol_apply (p : Fin 100000) :
    val_main_call2_v2 (F := Ideal) x0 x1 x2 x3 x4 x5 (ix1 p)
      = Cert.Spec.rowMax (fun j : Fin 100 => val_main_v64 (F := Ideal) x0 x1 x2 x3 x4 x5 (ix2 p j)) := by
  have e : val_main_call2_v0 (F := Ideal) x0 x1 x2 x3 x4 x5 (ix1 p)
      = Cert.Spec.rowMax (fun j : Fin 100 => val_main_v64 (F := Ideal) x0 x1 x2 x3 x4 x5 (ix2 p j)) :=
    hostRowMax_read (val_main_v64 (F := Ideal) x0 x1 x2 x3 x4 x5) p
  rw [val_main_call2_v2_apply, val_main_call2_v1_apply, val_main_call2_cst_0_apply, e]
  exact max_init_rowMax _

/-- The row maximum spread across the row, at `(p, q)`. -/
theorem rowMaxSpread_apply (p : Fin 100000) (q : Fin 100) :
    val_main_call2_v4 (F := Ideal) x0 x1 x2 x3 x4 x5 (ix2 p q)
      = Cert.Spec.rowMax (fun j : Fin 100 => val_main_v64 (F := Ideal) x0 x1 x2 x3 x4 x5 (ix2 p j)) := by
  have hi : idx_main_call2_v3 (idx_main_call2_v4 (ix2 p q)) = ix1 p :=
    funext fun a => Fin.ext (by match a with | ⟨0, _⟩ => rfl)
  rw [val_main_call2_v4_apply, val_main_call2_v3_apply, hi, rowMaxCol_apply]

/-- The shifted logits at `(p, q)`. -/
theorem shifted_apply (p : Fin 100000) (q : Fin 100) :
    val_main_call2_v5 (F := Ideal) x0 x1 x2 x3 x4 x5 (ix2 p q)
      = val_main_v64 (F := Ideal) x0 x1 x2 x3 x4 x5 (ix2 p q)
        - Cert.Spec.rowMax (fun j : Fin 100 => val_main_v64 (F := Ideal) x0 x1 x2 x3 x4 x5 (ix2 p j)) := by
  rw [val_main_call2_v5_apply, rowMaxSpread_apply]
  rfl

/-- The sum of the exponentials of the shifted logits along row `p`. -/
theorem rowSum_apply (p : Fin 100000) :
    val_main_call2_v7 (F := Ideal) x0 x1 x2 x3 x4 x5 (ix1 p)
      = ∑ j : Fin 100, Ideal.exp (val_main_v64 (F := Ideal) x0 x1 x2 x3 x4 x5 (ix2 p j)
          - Cert.Spec.rowMax (fun j : Fin 100 => val_main_v64 (F := Ideal) x0 x1 x2 x3 x4 x5 (ix2 p j))) := by
  rw [val_main_call2_v7_apply, val_main_call2_cst_1_apply, Ideal.ofBits_def, Ideal.ofBits_zero_f32, zero_add]
  refine Finset.sum_congr rfl fun k _ => ?_
  have hi : idx_main_call2_v7 (ix1 p) k = ix2 p k :=
    funext fun a => Fin.ext (by match a with | ⟨0, _⟩ => rfl | ⟨1, _⟩ => rfl)
  rw [hi, val_main_call2_v6_apply, Ideal.hostUnary_exp_def, shifted_apply]

/-- The logarithm of that sum spread across the row, at `(p, q)`. -/
theorem logSumSpread_apply (p : Fin 100000) (q : Fin 100) :
    val_main_call2_v10 (F := Ideal) x0 x1 x2 x3 x4 x5 (ix2 p q)
      = Ideal.log (∑ j : Fin 100, Ideal.exp (val_main_v64 (F := Ideal) x0 x1 x2 x3 x4 x5 (ix2 p j)
          - Cert.Spec.rowMax (fun j : Fin 100 => val_main_v64 (F := Ideal) x0 x1 x2 x3 x4 x5 (ix2 p j)))) := by
  have hi : idx_main_call2_v8 (idx_main_call2_v10 (ix2 p q)) = ix1 p :=
    funext fun a => Fin.ext (by match a with | ⟨0, _⟩ => rfl)
  rw [val_main_call2_v10_apply, val_main_call2_v9_apply, Ideal.hostUnary_log_def, val_main_call2_v8_apply, hi,
    rowSum_apply]

/-- The reference's result at `(p, q)` is the log-softmax, at column `q`, of row `p` of the biased logits. -/
theorem ref_lsm_biased (p : Fin 100000) (q : Fin 100) :
    val_main_v65 (F := Ideal) x0 x1 x2 x3 x4 x5 (ix2 p q)
      = Cert.Spec.lsmRow (fun j : Fin 100 => val_main_v64 (F := Ideal) x0 x1 x2 x3 x4 x5 (ix2 p j)) q := by
  rw [val_main_v65_apply, shifted_apply, logSumSpread_apply]
  rfl

end Stretch

/-- The reference's result at `(p, q)` is the log-softmax, at column `q`, of row `p` of the logits plus the bias. -/
theorem ref_lsm_apply (x0 : (⟨S100000x512, .f32⟩ : BufTy).Contents (Elt Ideal)) (x1 : (⟨S2x1600000, .i32⟩ : BufTy).Contents (Elt Ideal))
    (x2 : (⟨S512x128, .f32⟩ : BufTy).Contents (Elt Ideal)) (x3 : (⟨S128, .f32⟩ : BufTy).Contents (Elt Ideal))
    (x4 : (⟨S128x100, .f32⟩ : BufTy).Contents (Elt Ideal)) (x5 : (⟨S100, .f32⟩ : BufTy).Contents (Elt Ideal))
    (p : Fin 100000) (q : Fin 100) :
    Cert.ReferenceIdeal.ReadP.val_main_v65 (F := Ideal) x0 x1 x2 x3 x4 x5 (ix2 p q)
      = Cert.Spec.lsmRow (fun j : Fin 100 =>
          Cert.ReferenceIdeal.ReadP.val_main_v61 (F := Ideal) x0 x1 x2 x3 x4 (ix2 p j) + x5 (ix1 j)) q :=
  (ref_lsm_biased x0 x1 x2 x3 x4 x5 p q).trans
    (congrArg (fun v => Cert.Spec.lsmRow v q) (funext fun j => biased_apply x0 x1 x2 x3 x4 x5 p j))

end Cert.ReferenceIdeal.LsmRef

end
-- ==== Proof.RefStages3.lean ====
/-
  The reference program's closing stage is the fourth kernel region's function.

  The reference adds the second bias (broadcast from [100] over the rows) to the aggregated class scores and takes
  jax's log-softmax of each row: the row's maximum, the shifted entries, the logarithm of the sum of their
  exponentials. Read at an entry (p, q) this is the log-softmax of row p of the biased scores at column q, which
  is what the kernel's last region leaves there, the bias row of the kernel being the [100] bias re-laid as
  [1, 100].
-/
import proofs.«111680_j377957122204_1_alg».proof.Proof.RefRead
import proofs.«111680_j377957122204_1_alg».proof.Proof.LsmRef
import proofs.«111680_j377957122204_1_alg».proof.Proof.Spec
import proofs.«111680_j377957122204_1_alg».proof.Proof.Region3
import Idealize.ShloMosaic.Lib.ValueIdx
import Idealize.ShloMosaic.Lib.ValueLayout

noncomputable section

namespace Cert.ReferenceIdeal.RefStages

open Cert.ReferenceIdeal Cert.ReferenceIdeal.ReadP
open Idealize.ShloMosaic Idealize.ShloMosaic.ValueIdx

/-- The reference's result is the rows' log-softmax the fourth kernel region leaves, the bias re-laid as a row. -/
theorem ref_v65 (x0 : (⟨S100000x512, .f32⟩ : BufTy).Contents (Elt Ideal)) (x1 : (⟨S2x1600000, .i32⟩ : BufTy).Contents (Elt Ideal))
    (x2 : (⟨S512x128, .f32⟩ : BufTy).Contents (Elt Ideal)) (x3 : (⟨S128, .f32⟩ : BufTy).Contents (Elt Ideal))
    (x4 : (⟨S128x100, .f32⟩ : BufTy).Contents (Elt Ideal)) (x5 : (⟨S100, .f32⟩ : BufTy).Contents (Elt Ideal)) :
    val_main_v65 (F := Ideal) x0 x1 x2 x3 x4 x5
      = Cert.KernelIdeal.Reg3.G (val_main_v61 (F := Ideal) x0 x1 x2 x3 x4)
          (shapeCast Cert.KernelIdeal.S1x100 x5 Cert.KernelIdeal.Gen.shapeCasts_S100_S1x100) := by
  funext i
  obtain ⟨p, q, rfl⟩ : ∃ (p : Fin 100000) (q : Fin 100), i = ix2 p q := ⟨i 0, i 1, eq_ix2 i⟩
  rw [Cert.ReferenceIdeal.LsmRef.ref_lsm_apply]
  unfold Cert.KernelIdeal.Reg3.G
  refine congrArg (fun v : Fin 100 → EReal => Cert.Spec.lsmRow v q) (funext fun j => ?_)
  rw [shapeCast_a_1a_apply]

end Cert.ReferenceIdeal.RefStages

end
-- ==== Proof.HostVals.lean ====
/-
  The host stretches of the kernel program: what each of its four kernel regions finds in its input arrays when it
  is entered.

  Between the kernel regions the program runs StableHLO operations on whole arrays. The first three stretches
  normalise the graph: from the edge list they form the source and destination index vectors (the edges followed by
  one self-loop per node) and the edge weights deg^(-1/2)[src] * deg^(-1/2)[dst]. After the first and after the third
  region a stretch aggregates a node array along the edges: it gathers the rows at the source indices, scales each
  row by its edge's weight and adds the rows into a zero array at the destination indices. The reference program
  runs the same operations, over the same dimension records, on the result of its own matrix product, so each
  aggregation is ONE function of the node array and the edge list, named here (`aggr1`, `aggr2`), and the reference's
  stage is that function of the reference's matrix product.

  Every comparison of a kernel-side stretch with the reference's stages is made at an arbitrary valuation of the
  buffers and generic in the float family, so the inputs stay opaque and the two terms agree by unfolding the
  stages' definitions only.
-/
import proofs.«111680_j377957122204_1_alg».proof.Proof.Gen.KernelIdeal.Frame
import proofs.«111680_j377957122204_1_alg».proof.Proof.RefRead
import Idealize.ShloMosaic.Lib.StableHlo.Run

set_option maxRecDepth 16384

noncomputable section

namespace Cert.KernelIdeal.HostVals

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! ## What each host stretch writes -/

/-- The references the first host stretch writes. -/
abbrev ops0_W : List (Ref sig .tc) :=
  [main_v0, main_v1, main_v2, main_v3, main_v4, main_v5, main_v6, main_cst, main_v7, main_cst_0, main_v8, main_v9,
   main_v10, main_cst_1, main_v11, main_v12, main_v13, main_cst_2]
/-- The references the degree-normalisation's selection writes. -/
abbrev ops0_1_W : List (Ref sig .tc) := [main_call0_v0, main_call0_v1, main_v14]
/-- The references the edge-weight stretch writes. -/
abbrev ops0_2_W : List (Ref sig .tc) :=
  [main_c, main_v15, main_v16, main_c_3, main_v17, main_v18, main_v19, main_v20, main_v21, main_c_4, main_v22, main_v23,
   main_c_5, main_v24, main_v25, main_v26, main_v27, main_v28, main_v29]
/-- The references the first aggregation writes. -/
abbrev ops1_W : List (Ref sig .tc) :=
  [main_c_6, main_v31, main_v32, main_c_7, main_v33, main_v34, main_v35, main_v36, main_v37, main_v38, main_v39, main_v40,
   main_cst_8, main_v41, main_v42, main_v43, main_v44]

theorem ops0_writes : (hostOps0 : List (HloOp τ sig (Elt F))).Forall fun op =>
    op.writes ⊆ (ops0_W.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem ops0_1_writes : (hostOps0_1 : List (HloOp τ sig (Elt F))).Forall fun op =>
    op.writes ⊆ (ops0_1_W.map (Proc.devRef (τ := τ) .tc)).toFinset := by
  simp only [hostOps0_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem ops0_2_writes : (hostOps0_2 : List (HloOp τ sig (Elt F))).Forall fun op =>
    op.writes ⊆ (ops0_2_W.map (Proc.devRef (τ := τ) .tc)).toFinset := by
  simp only [hostOps0_2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem ops1_writes : (hostOps1 : List (HloOp τ sig (Elt F))).Forall fun op =>
    op.writes ⊆ (ops1_W.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-! ## A buffer a stretch or a region does not write keeps its contents -/

theorem W0_at (c : Dev nD) (r : Ref sig .tc) : W0 m ρ c (Proc.devRef .tc r) = m ((c : Thread nD τ).loc r) := rfl
theorem W1_of (c : Dev nD) (r : Ref sig .tc) (h : r ∉ ops0_W) :
    W1 m ρ c (Proc.devRef .tc r) = W0 m ρ c (Proc.devRef .tc r) :=
  StableHlo.after_of_writes_sub hostOps0 _ ops0_writes h
theorem W2_of (c : Dev nD) (r : Ref sig .tc) (h : r ∉ ops0_1_W) :
    W2 m ρ c (Proc.devRef .tc r) = W1 m ρ c (Proc.devRef .tc r) :=
  StableHlo.after_of_writes_sub hostOps0_1 _ ops0_1_writes h
theorem W3_of (c : Dev nD) (r : Ref sig .tc) (h : r ∉ ops0_2_W) :
    W3 m ρ c (Proc.devRef .tc r) = W2 m ρ c (Proc.devRef .tc r) :=
  StableHlo.after_of_writes_sub hostOps0_2 _ ops0_2_writes h
theorem W5_of (c : Dev nD) (r : Ref sig .tc) (h : r ∉ ops1_W) :
    W5 m ρ c (Proc.devRef .tc r) = W4 m ρ c (Proc.devRef .tc r) :=
  StableHlo.after_of_writes_sub hostOps1 _ ops1_writes h

/-- An array no host stretch before the first region writes is there as launched. -/
theorem W3_launch (c : Dev nD) (r : Ref sig .tc) (h0 : r ∉ ops0_W) (h1 : r ∉ ops0_1_W) (h2 : r ∉ ops0_2_W) :
    W3 m ρ c (Proc.devRef .tc r) = m ((c : Thread nD τ).loc r) :=
  (W3_of m ρ c r h2).trans ((W2_of m ρ c r h1).trans (W1_of m ρ c r h0))

/-! ## The regions' arrays that are arguments of the program -/

theorem entry0_x (c : Dev nD) : V3 m ρ c main_arg0 = m ((c : Thread nD τ).loc main_arg0) :=
  W3_launch m ρ c main_arg0 (by decide) (by decide) (by decide)
theorem entry0_w (c : Dev nD) : V3 m ρ c main_arg2 = m ((c : Thread nD τ).loc main_arg2) :=
  W3_launch m ρ c main_arg2 (by decide) (by decide) (by decide)
theorem entry2_w (c : Dev nD) : V6 m ρ c main_arg4 = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = m ((c : Thread nD τ).loc main_arg4) := W3_launch m ρ c main_arg4 (by decide) (by decide) (by decide)

/-! ## The graph normalisation: the kernel program's first three stretches compute the reference's stages

Each lemma is over an arbitrary valuation `X` of the buffers the stretch starts from, so that the two programs'
terms are compared with their inputs opaque. -/

theorem ops0_v3 (X : Valuation τ sig (Elt F)) :
    StableHlo.after hostOps0 X (Proc.devRef .tc main_v3)
      = Cert.ReferenceIdeal.ReadP.val_main_v3 (F := F) (X (Proc.devRef .tc main_arg1)) := by
  dsimp only [hostOps0]
  after_results
  rfl
theorem ops0_v6 (X : Valuation τ sig (Elt F)) :
    StableHlo.after hostOps0 X (Proc.devRef .tc main_v6)
      = Cert.ReferenceIdeal.ReadP.val_main_v6 (F := F) (X (Proc.devRef .tc main_arg1)) := by
  dsimp only [hostOps0]
  after_results
  rfl
theorem ops0_v12 (X : Valuation τ sig (Elt F)) :
    StableHlo.after hostOps0 X (Proc.devRef .tc main_v12)
      = Cert.ReferenceIdeal.ReadP.val_main_v12 (F := F) (X (Proc.devRef .tc main_arg1)) := by
  dsimp only [hostOps0]
  after_results
  rfl
theorem ops0_v13 (X : Valuation τ sig (Elt F)) :
    StableHlo.after hostOps0 X (Proc.devRef .tc main_v13)
      = Cert.ReferenceIdeal.ReadP.val_main_v13 (F := F) (X (Proc.devRef .tc main_arg1)) := by
  dsimp only [hostOps0]
  after_results
  rfl
theorem ops0_cst_2 (X : Valuation τ sig (Elt F)) :
    StableHlo.after hostOps0 X (Proc.devRef .tc main_cst_2) = Cert.ReferenceIdeal.ReadP.val_main_cst_2 (F := F) := by
  dsimp only [hostOps0]
  after_results
  rfl

/-- The selection of deg^(-1/2) where the degree is positive, zero elsewhere. -/
theorem ops0_1_v14 (X : Valuation τ sig (Elt F)) (x1 : (⟨S2x1600000, .i32⟩ : BufTy).Contents (Elt F))
    (e12 : X (Proc.devRef .tc main_v12) = Cert.ReferenceIdeal.ReadP.val_main_v12 (F := F) x1)
    (e13 : X (Proc.devRef .tc main_v13) = Cert.ReferenceIdeal.ReadP.val_main_v13 (F := F) x1)
    (ec : X (Proc.devRef .tc main_cst_2) = Cert.ReferenceIdeal.ReadP.val_main_cst_2 (F := F)) :
    StableHlo.after hostOps0_1 X (Proc.devRef .tc main_v14) = Cert.ReferenceIdeal.ReadP.val_main_v14 (F := F) x1 := by
  dsimp only [hostOps0_1]
  after_results
  rw [e12, e13, ec]
  rfl

/-- The edge weights: deg^(-1/2) gathered at the sources times deg^(-1/2) gathered at the destinations. -/
theorem ops0_2_v29 (X : Valuation τ sig (Elt F)) (x1 : (⟨S2x1600000, .i32⟩ : BufTy).Contents (Elt F))
    (e3 : X (Proc.devRef .tc main_v3) = Cert.ReferenceIdeal.ReadP.val_main_v3 (F := F) x1)
    (e6 : X (Proc.devRef .tc main_v6) = Cert.ReferenceIdeal.ReadP.val_main_v6 (F := F) x1)
    (e14 : X (Proc.devRef .tc main_v14) = Cert.ReferenceIdeal.ReadP.val_main_v14 (F := F) x1) :
    StableHlo.after hostOps0_2 X (Proc.devRef .tc main_v29) = Cert.ReferenceIdeal.ReadP.val_main_v29 (F := F) x1 := by
  dsimp only [hostOps0_2]
  after_results_simp
  rw [e3, e6, e14]
  rfl

/-! ## The two aggregations -/

/-- The first aggregation as ONE function of a node array `t` and the edge list: rows of `t` gathered at the source
    indices, each scaled by its edge's weight, added into a zero array at the destination indices. -/
def aggr1 (t : FVec F Cert.ReferenceIdeal.S100000x128 .f32)
    (x1 : (⟨Cert.ReferenceIdeal.S2x1600000, .i32⟩ : BufTy).Contents (Elt F)) : FVec F Cert.ReferenceIdeal.S100000x128 .f32 :=
  Host.scatterAdd Cert.ReferenceIdeal.scatter_S100000x128_S1700000x1_S1700000x128_1_0_0_1
    (Cert.ReferenceIdeal.ReadP.val_main_v41 (F := F)) (Cert.ReferenceIdeal.ReadP.val_main_v42 (F := F) x1)
    (mulf (Host.gather Cert.ReferenceIdeal.gather_S100000x128_S1700000x1_S1700000x128_1_0_n_n_0_1_1128 t
        (Cert.ReferenceIdeal.ReadP.val_main_v36 (F := F) x1)) (Cert.ReferenceIdeal.ReadP.val_main_v39 (F := F) x1))

/-- The reference's first aggregation is that function of its first matrix product. -/
theorem ref_v43 (x0 : (⟨Cert.ReferenceIdeal.S100000x512, .f32⟩ : BufTy).Contents (Elt F))
    (x1 : (⟨Cert.ReferenceIdeal.S2x1600000, .i32⟩ : BufTy).Contents (Elt F))
    (x2 : (⟨Cert.ReferenceIdeal.S512x128, .f32⟩ : BufTy).Contents (Elt F)) :
    Cert.ReferenceIdeal.ReadP.val_main_v43 (F := F) x0 x1 x2
      = aggr1 (Cert.ReferenceIdeal.ReadP.val_main_v30 (F := F) x0 x2) x1 := rfl

/-- The second aggregation, on a node array of 100 columns. -/
def aggr2 (t : FVec F Cert.ReferenceIdeal.S100000x100 .f32)
    (x1 : (⟨Cert.ReferenceIdeal.S2x1600000, .i32⟩ : BufTy).Contents (Elt F)) : FVec F Cert.ReferenceIdeal.S100000x100 .f32 :=
  Host.scatterAdd Cert.ReferenceIdeal.scatter_S100000x100_S1700000x1_S1700000x100_1_0_0_1
    (Cert.ReferenceIdeal.ReadP.val_main_v59 (F := F)) (Cert.ReferenceIdeal.ReadP.val_main_v60 (F := F) x1)
    (mulf (Host.gather Cert.ReferenceIdeal.gather_S100000x100_S1700000x1_S1700000x100_1_0_n_n_0_1_1100 t
        (Cert.ReferenceIdeal.ReadP.val_main_v54 (F := F) x1)) (Cert.ReferenceIdeal.ReadP.val_main_v57 (F := F) x1))

/-- The reference's second aggregation is that function of its second matrix product. -/
theorem ref_v61 (x0 : (⟨Cert.ReferenceIdeal.S100000x512, .f32⟩ : BufTy).Contents (Elt F))
    (x1 : (⟨Cert.ReferenceIdeal.S2x1600000, .i32⟩ : BufTy).Contents (Elt F))
    (x2 : (⟨Cert.ReferenceIdeal.S512x128, .f32⟩ : BufTy).Contents (Elt F))
    (x3 : (⟨Cert.ReferenceIdeal.S128, .f32⟩ : BufTy).Contents (Elt F))
    (x4 : (⟨Cert.ReferenceIdeal.S128x100, .f32⟩ : BufTy).Contents (Elt F)) :
    Cert.ReferenceIdeal.ReadP.val_main_v61 (F := F) x0 x1 x2 x3 x4
      = aggr2 (Cert.ReferenceIdeal.ReadP.val_main_v48 (F := F) x0 x1 x2 x3 x4) x1 := rfl

/-- The kernel program's first aggregation stretch, from any contents whose index vectors and edge weights are the
    reference's: the same function of what the first region left. -/
theorem ops1_v43 (X : Valuation τ sig (Elt F)) (x1 : (⟨S2x1600000, .i32⟩ : BufTy).Contents (Elt F))
    (e3 : X (Proc.devRef .tc main_v3) = Cert.ReferenceIdeal.ReadP.val_main_v3 (F := F) x1)
    (e6 : X (Proc.devRef .tc main_v6) = Cert.ReferenceIdeal.ReadP.val_main_v6 (F := F) x1)
    (e29 : X (Proc.devRef .tc main_v29) = Cert.ReferenceIdeal.ReadP.val_main_v29 (F := F) x1) :
    StableHlo.after hostOps1 X (Proc.devRef .tc main_v43) = aggr1 (X (Proc.devRef .tc main_v30)) x1 := by
  dsimp only [hostOps1]
  after_results_simp
  rw [e3, e6, e29]
  rfl
/-- The bias row as a one-row matrix. -/
theorem ops1_v44 (X : Valuation τ sig (Elt F)) :
    StableHlo.after hostOps1 X (Proc.devRef .tc main_v44)
      = shapeCast S1x128 (X (Proc.devRef .tc main_arg3)) shapeCasts_S128_S1x128 := by
  dsimp only [hostOps1]
  after_results_simp
  rfl

/-- The second aggregation stretch likewise, on what the third region left. -/
theorem ops3_v59 (X : Valuation τ sig (Elt F)) (x1 : (⟨S2x1600000, .i32⟩ : BufTy).Contents (Elt F))
    (e3 : X (Proc.devRef .tc main_v3) = Cert.ReferenceIdeal.ReadP.val_main_v3 (F := F) x1)
    (e6 : X (Proc.devRef .tc main_v6) = Cert.ReferenceIdeal.ReadP.val_main_v6 (F := F) x1)
    (e29 : X (Proc.devRef .tc main_v29) = Cert.ReferenceIdeal.ReadP.val_main_v29 (F := F) x1) :
    StableHlo.after hostOps3 X (Proc.devRef .tc main_v59) = aggr2 (X (Proc.devRef .tc main_v46)) x1 := by
  dsimp only [hostOps3]
  after_results_simp
  rw [e3, e6, e29]
  rfl
theorem ops3_v60 (X : Valuation τ sig (Elt F)) :
    StableHlo.after hostOps3 X (Proc.devRef .tc main_v60)
      = shapeCast S1x100 (X (Proc.devRef .tc main_arg5)) shapeCasts_S100_S1x100 := by
  dsimp only [hostOps3]
  after_results_simp
  rfl

/-! ## The normalisation at the first region's entry -/

theorem W1_v3 (c : Dev nD) : W1 m ρ c (Proc.devRef .tc main_v3)
    = Cert.ReferenceIdeal.ReadP.val_main_v3 (F := F) (m ((c : Thread nD τ).loc main_arg1)) := ops0_v3 (W0 m ρ c)
theorem W1_v6 (c : Dev nD) : W1 m ρ c (Proc.devRef .tc main_v6)
    = Cert.ReferenceIdeal.ReadP.val_main_v6 (F := F) (m ((c : Thread nD τ).loc main_arg1)) := ops0_v6 (W0 m ρ c)
theorem W2_v3 (c : Dev nD) : W2 m ρ c (Proc.devRef .tc main_v3)
    = Cert.ReferenceIdeal.ReadP.val_main_v3 (F := F) (m ((c : Thread nD τ).loc main_arg1)) :=
  (W2_of m ρ c main_v3 (by decide)).trans (W1_v3 m ρ c)
theorem W2_v6 (c : Dev nD) : W2 m ρ c (Proc.devRef .tc main_v6)
    = Cert.ReferenceIdeal.ReadP.val_main_v6 (F := F) (m ((c : Thread nD τ).loc main_arg1)) :=
  (W2_of m ρ c main_v6 (by decide)).trans (W1_v6 m ρ c)
theorem W2_v14 (c : Dev nD) : W2 m ρ c (Proc.devRef .tc main_v14)
    = Cert.ReferenceIdeal.ReadP.val_main_v14 (F := F) (m ((c : Thread nD τ).loc main_arg1)) :=
  ops0_1_v14 (W1 m ρ c) (m ((c : Thread nD τ).loc main_arg1)) (ops0_v12 (W0 m ρ c)) (ops0_v13 (W0 m ρ c))
    (ops0_cst_2 (W0 m ρ c))

/-- At the first region's entry the source indices, the destination indices and the edge weights are the
    reference's stages of the launched edge list. -/
theorem W3_v3 (c : Dev nD) : W3 m ρ c (Proc.devRef .tc main_v3)
    = Cert.ReferenceIdeal.ReadP.val_main_v3 (F := F) (m ((c : Thread nD τ).loc main_arg1)) :=
  (W3_of m ρ c main_v3 (by decide)).trans (W2_v3 m ρ c)
theorem W3_v6 (c : Dev nD) : W3 m ρ c (Proc.devRef .tc main_v6)
    = Cert.ReferenceIdeal.ReadP.val_main_v6 (F := F) (m ((c : Thread nD τ).loc main_arg1)) :=
  (W3_of m ρ c main_v6 (by decide)).trans (W2_v6 m ρ c)
theorem W3_v29 (c : Dev nD) : W3 m ρ c (Proc.devRef .tc main_v29)
    = Cert.ReferenceIdeal.ReadP.val_main_v29 (F := F) (m ((c : Thread nD τ).loc main_arg1)) :=
  ops0_2_v29 (W2 m ρ c) (m ((c : Thread nD τ).loc main_arg1)) (W2_v3 m ρ c) (W2_v6 m ρ c) (W2_v14 m ρ c)

/-! ## Carried to the later boundaries -/

theorem W4_keep (c : Dev nD) (r : Ref sig .tc) (h0 : ∀ w, Pipeline.arrRef spec0 w ≠ r) :
    W4 m ρ c (Proc.devRef .tc r) = W3 m ρ c (Proc.devRef .tc r) := W4_of_ne m ρ c r h0
/-- A buffer that is no array of the first three regions and that the first aggregation does not write holds at the
    third region's exit what it held at the first region's entry. -/
theorem W7_keep (c : Dev nD) (r : Ref sig .tc) (h0 : ∀ w, Pipeline.arrRef spec0 w ≠ r) (h1 : r ∉ ops1_W)
    (h2 : ∀ w, Pipeline.arrRef spec1 w ≠ r) (h3 : ∀ w, Pipeline.arrRef spec2 w ≠ r) :
    W7 m ρ c (Proc.devRef .tc r) = W3 m ρ c (Proc.devRef .tc r) :=
  (W7_of_ne m ρ c r h3).trans ((W6_of_ne m ρ c r h2).trans ((W5_of m ρ c r h1).trans (W4_of_ne m ρ c r h0)))

/-! ## The second and the fourth region's entries -/

theorem entry1_a (c : Dev nD) :
    V5 m ρ c main_v43 = aggr1 (V4 m ρ c main_v30) (m ((c : Thread nD τ).loc main_arg1)) :=
  ops1_v43 (W4 m ρ c) (m ((c : Thread nD τ).loc main_arg1))
    ((W4_keep m ρ c main_v3 (by decide)).trans (W3_v3 m ρ c))
    ((W4_keep m ρ c main_v6 (by decide)).trans (W3_v6 m ρ c))
    ((W4_keep m ρ c main_v29 (by decide)).trans (W3_v29 m ρ c))
theorem entry1_b (c : Dev nD) :
    V5 m ρ c main_v44 = shapeCast S1x128 (m ((c : Thread nD τ).loc main_arg3)) shapeCasts_S128_S1x128 :=
  (ops1_v44 (W4 m ρ c)).trans (congrArg (fun z => shapeCast S1x128 z shapeCasts_S128_S1x128)
    ((W4_keep m ρ c main_arg3 (by decide)).trans (W3_launch m ρ c main_arg3 (by decide) (by decide) (by decide))))
theorem entry3_a (c : Dev nD) :
    V8 m ρ c main_v59 = aggr2 (V7 m ρ c main_v46) (m ((c : Thread nD τ).loc main_arg1)) :=
  ops3_v59 (W7 m ρ c) (m ((c : Thread nD τ).loc main_arg1))
    ((W7_keep m ρ c main_v3 (by decide) (by decide) (by decide) (by decide)).trans (W3_v3 m ρ c))
    ((W7_keep m ρ c main_v6 (by decide) (by decide) (by decide) (by decide)).trans (W3_v6 m ρ c))
    ((W7_keep m ρ c main_v29 (by decide) (by decide) (by decide) (by decide)).trans (W3_v29 m ρ c))
theorem entry3_b (c : Dev nD) :
    V8 m ρ c main_v60 = shapeCast S1x100 (m ((c : Thread nD τ).loc main_arg5)) shapeCasts_S100_S1x100 :=
  (ops3_v60 (W7 m ρ c)).trans (congrArg (fun z => shapeCast S1x100 z shapeCasts_S100_S1x100)
    ((W7_keep m ρ c main_arg5 (by decide) (by decide) (by decide) (by decide)).trans
      (W3_launch m ρ c main_arg5 (by decide) (by decide) (by decide))))

end Cert.KernelIdeal.HostVals
end
-- ==== Proof.KernelValue.lean ====
/-
  The kernel program's result, traced from its last region back to the arguments.

  The program alternates host stretches and kernel regions. At each boundary the buffers hold known functions of the
  argument arrays: the first region leaves the product of the features with the first weight matrix; the host stretch
  after it gathers that product's rows along the edges, scales them by the edge weights and adds them into the
  destination rows; the second region adds the first bias and rectifies; the third multiplies by the second weight
  matrix; the host stretch after it aggregates along the edges again; the fourth region adds the second bias and takes
  each row's log-softmax. Each of these is, stage for stage, what the reference program computes (its operations
  read one at a time), so the result buffer ends holding the reference's closing stage of the same arguments.
-/
import proofs.«111680_j377957122204_1_alg».proof.Proof.Gen.KernelIdeal.Frame
import proofs.«111680_j377957122204_1_alg».proof.Proof.Region0
import proofs.«111680_j377957122204_1_alg».proof.Proof.Region1
import proofs.«111680_j377957122204_1_alg».proof.Proof.Region2
import proofs.«111680_j377957122204_1_alg».proof.Proof.Region3
import proofs.«111680_j377957122204_1_alg».proof.Proof.RefRead
import proofs.«111680_j377957122204_1_alg».proof.Proof.RefStages
import proofs.«111680_j377957122204_1_alg».proof.Proof.RefStages3
import proofs.«111680_j377957122204_1_alg».proof.Proof.HostVals

set_option maxRecDepth 16384

noncomputable section

namespace Cert.KernelIdeal.KVal

open Cert.KernelIdeal Cert.KernelIdeal.Gen Cert.KernelIdeal.HostVals
open Idealize.ShloMosaic Idealize.ShloMosaic.TcCoe Idealize.SL.Sem

variable (m : (ℓ : Loc nD τ sig) → Buf (Elt Ideal) ℓ) (ρ : Dev nD → PrngReg)

/-- After the first region its output holds the reference's first product of the arguments. -/
theorem at_v30 (c : Dev nD) :
    V4 m ρ c main_v30
      = Cert.ReferenceIdeal.ReadP.val_main_v30 (F := Ideal) (m ((c : Thread nD τ).loc main_arg0)) (m ((c : Thread nD τ).loc main_arg2)) := by
  refine (show V4 m ρ c main_v30 = (dat0 (V3 m ρ) c).arrAt 2 cfg0.N from W4_arr m ρ c 2).trans ?_
  rw [Cert.KernelIdeal.Reg0.arr (V3 m ρ) c, entry0_x m ρ c, entry0_w m ρ c]
  exact (Cert.ReferenceIdeal.RefStages.ref_v30 _ _).symm

/-- The second region is entered with the reference's first aggregation in its first operand. -/
theorem at_v43 (c : Dev nD) :
    V5 m ρ c main_v43
      = Cert.ReferenceIdeal.ReadP.val_main_v43 (F := Ideal) (m ((c : Thread nD τ).loc main_arg0)) (m ((c : Thread nD τ).loc main_arg1)) (m ((c : Thread nD τ).loc main_arg2)) := by
  rw [entry1_a m ρ c, at_v30 m ρ c]
  exact (ref_v43 _ _ _).symm

/-- After the second region its output holds the reference's biased, rectified hidden features. -/
theorem at_v45 (c : Dev nD) :
    V6 m ρ c main_v45
      = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) := by
  refine (show V6 m ρ c main_v45 = (dat1 (V5 m ρ) c).arrAt 2 cfg1.N from W6_arr m ρ c 2).trans ?_
  rw [Cert.KernelIdeal.Reg1.arr (V5 m ρ) c, at_v43 m ρ c, entry1_b m ρ c]
  exact (Cert.ReferenceIdeal.RefStages.ref_v47 _ _ _ _).symm

/-- After the third region its output holds the reference's second product. -/
theorem at_v46 (c : Dev nD) :
    V7 m ρ c main_v46
      = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (show V7 m ρ c main_v46 = (dat2 (V6 m ρ) c).arrAt 2 cfg2.N from W7_arr m ρ c 2).trans ?_
  rw [Cert.KernelIdeal.Reg2.arr (V6 m ρ) c, at_v45 m ρ c, entry2_w m ρ c]
  exact (Cert.ReferenceIdeal.RefStages.ref_v48 _ _ _ _ _).symm

/-- The fourth region is entered with the reference's second aggregation in its first operand. -/
theorem at_v59 (c : Dev nD) :
    V8 m ρ c main_v59
      = Cert.ReferenceIdeal.ReadP.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [entry3_a m ρ c, at_v46 m ρ c]
  exact (ref_v61 _ _ _ _ _).symm

/-- The result buffer ends holding the reference's closing stage of the arguments. -/
theorem at_v61 (c : Dev nD) :
    W9 m ρ c (Proc.devRef .tc main_v61)
      = Cert.ReferenceIdeal.ReadP.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (show W9 m ρ c (Proc.devRef .tc main_v61) = (dat3 (V8 m ρ) c).arrAt 2 cfg3.N from W9_arr m ρ c 2).trans ?_
  rw [Cert.KernelIdeal.Reg3.arr (V8 m ρ) c, at_v59 m ρ c, entry3_b m ρ c]
  exact (Cert.ReferenceIdeal.RefStages.ref_v65 _ _ _ _ _ _).symm

end Cert.KernelIdeal.KVal

end
-- ==== Proof.RefRunStaged.lean ====
/-
  The reference program's run, stage by stage.

  The reference's @main is a straight line of 98 host operations. Run from the launch memory it ends with every
  buffer at the fold of the operations' results over the launch contents. Here that fold is read at the result buffer
  without ever writing the composed term out: the line is cut into six consecutive stretches, each stretch is folded
  once from an ARBITRARY valuation of the buffers — under the hypothesis that the buffers it reads hold the stages
  computed before it — and the stretches are chained. The stages are the functions of the arguments that the reading
  of the reference one operation at a time names (one operation applied to earlier stages), so each stretch's fact
  closes by comparing a short fold with a short definition.
-/
import proofs.«111680_j377957122204_1_alg».proof.Proof.RefOps
import proofs.«111680_j377957122204_1_alg».proof.Proof.RefRead
import Idealize.ShloMosaic.Lib.StableHlo.Run
import Idealize.ShloMosaic.Lib.Pipeline.Frame

noncomputable section

namespace Cert.ReferenceIdeal.RunStaged

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-! ## The operation list, cut into six consecutive stretches

The cuts fall after the two index arrays are joined (the fourth and the seventh operations' results, which many later
operations read), after the edge weights, after each aggregation, and before the closing bias and log-softmax. -/

abbrev c1a : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

abbrev c1b : List (HloOp τ sig (Elt F)) :=
  [ nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf (F := F) .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

abbrev c2 : List (HloOp τ sig (Elt F)) :=
  [ binary main_arg0 main_arg2 main_v30 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

abbrev c3 : List (HloOp τ sig (Elt F)) :=
  [ unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]

abbrev c4 : List (HloOp τ sig (Elt F)) :=
  [ binary main_v47 main_arg4 main_v48 ((fun l r => Host.dotGeneral dot_S100000x128_S128x100_S100000x100_1_0_0_1_n_n none l r) : (⟨S100000x128, .f32⟩ : BufTy).Contents (Elt F) → (⟨S128x100, .f32⟩ : BufTy).Contents (Elt F) → (⟨S100000x100, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x100_S1700000x1_S1700000x100_1_0_n_n_0_1_1100 x i) : (⟨S100000x100, .f32⟩ : BufTy).Contents (Elt F) → (⟨S1700000x1, .i32⟩ : BufTy).Contents (Elt F) → (⟨S1700000x100, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x100 ![0, 1] bcast_S1700000x1_S1700000x100_0_1 : (⟨S1700000x1, .f32⟩ : BufTy).Contents (Elt F) → (⟨S1700000x100, .f32⟩ : BufTy).Contents (Elt F)),
    binary main_v55 main_v57 main_v58 (mulf : (⟨S1700000x100, .f32⟩ : BufTy).Contents (Elt F) → (⟨S1700000x100, .f32⟩ : BufTy).Contents (Elt F) → (⟨S1700000x100, .f32⟩ : BufTy).Contents (Elt F)),
    nullary main_cst_11 (constant S_ .f32 0x00000000#32),
    unary main_cst_11 main_v59 (broadcastInDim S100000x100 ![] bcast_S_S100000x100 : (⟨S_, .f32⟩ : BufTy).Contents (Elt F) → (⟨S100000x100, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x100_S1700000x1_S1700000x100_1_0_0_1 x i u) : (⟨S100000x100, .f32⟩ : BufTy).Contents (Elt F) → (⟨S1700000x1, .i32⟩ : BufTy).Contents (Elt F) → (⟨S1700000x100, .f32⟩ : BufTy).Contents (Elt F) → (⟨S100000x100, .f32⟩ : BufTy).Contents (Elt F)) ]

abbrev c5 : List (HloOp τ sig (Elt F)) :=
  [ unary main_arg5 main_v62 (broadcastInDim S1x100 ![1] bcast_S100_S1x100_1 : (⟨S100, .f32⟩ : BufTy).Contents (Elt F) → (⟨S1x100, .f32⟩ : BufTy).Contents (Elt F)),
    unary main_v62 main_v63 (broadcastInDim S100000x100 ![0, 1] bcast_S1x100_S100000x100_0_1 : (⟨S1x100, .f32⟩ : BufTy).Contents (Elt F) → (⟨S100000x100, .f32⟩ : BufTy).Contents (Elt F)),
    binary main_v61 main_v63 main_v64 (addf : (⟨S100000x100, .f32⟩ : BufTy).Contents (Elt F) → (⟨S100000x100, .f32⟩ : BufTy).Contents (Elt F) → (⟨S100000x100, .f32⟩ : BufTy).Contents (Elt F)),
    TRef.nullary (TRef.of (T := ⟨S_, .f32⟩) main_call2_cst) (constant S_ .f32 0xFF800000#32),
    TRef.binary (TRef.of (T := ⟨S100000x100, .f32⟩) main_v64) (TRef.of (T := ⟨S_, .f32⟩) main_call2_cst) (TRef.of (T := ⟨S100000, .f32⟩) main_call2_v0) (fun x v => Host.reduce FloatOps.maximumf x v reducesTo_S100000x100_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x100, .f32⟩) main_call2_v4) (broadcastInDim S100000x100 ![0, 1] bcast_S100000x1_S100000x100_0_1),
    TRef.binary (TRef.of (T := ⟨S100000x100, .f32⟩) main_v64) (TRef.of (T := ⟨S100000x100, .f32⟩) main_call2_v4) (TRef.of (T := ⟨S100000x100, .f32⟩) main_call2_v5) subf,
    TRef.unary (TRef.of (T := ⟨S100000x100, .f32⟩) main_call2_v5) (TRef.of (T := ⟨S100000x100, .f32⟩) main_call2_v6) Host.exp,
    TRef.nullary (TRef.of (T := ⟨S_, .f32⟩) main_call2_cst_1) (constant S_ .f32 0x00000000#32),
    TRef.binary (TRef.of (T := ⟨S100000x100, .f32⟩) main_call2_v6) (TRef.of (T := ⟨S_, .f32⟩) main_call2_cst_1) (TRef.of (T := ⟨S100000, .f32⟩) main_call2_v7) (fun x v => Host.reduceAdd x v reducesTo_S100000x100_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x100, .f32⟩) main_call2_v10) (broadcastInDim S100000x100 ![0, 1] bcast_S100000x1_S100000x100_0_1),
    TRef.binary (TRef.of (T := ⟨S100000x100, .f32⟩) main_call2_v5) (TRef.of (T := ⟨S100000x100, .f32⟩) main_call2_v10) (TRef.of (T := ⟨S100000x100, .f32⟩) main_v65) subf ]

/-- The stretches, one after another, are the whole list. -/
theorem ops_eq : (ValueP.ops : List (HloOp τ sig (Elt F))) = c1a ++ (c1b ++ (c2 ++ (c3 ++ (c4 ++ c5)))) := rfl

/-! ## What a called function's typed buffers do to a value: nothing

Inside a called function a value is moved to its buffer's own type and back along an equation of types that holds by
computation; stored and read back it is the value (in general), and at the call's argument and result buffers, whose
types are literal, either move alone is the identity. -/

/-- A callee's value stored in its buffer and read back is the value. -/
theorem ofBuf_toBuf {T : BufTy} (x : TRef sig T) (v : T.Contents (Elt F)) : x.ofBuf (x.toBuf v) = v := by
  obtain ⟨r, rfl, _, _⟩ := x; rfl

/-- Reading the closing function's argument at its declared type changes nothing. -/
theorem in_v64 (h1 h2 h3) (v : main_v64.ty.Contents (Elt F)) :
    (TRef.of (sig := sig) (T := ⟨S100000x100, .f32⟩) main_v64 h1 h2 h3).ofBuf v = v := rfl

/-- Storing the closing function's result at its declared type changes nothing. -/
theorem out_v65 (h1 h2 h3) (v : (⟨S100000x100, .f32⟩ : BufTy).Contents (Elt F)) :
    (TRef.of (sig := sig) (T := ⟨S100000x100, .f32⟩) main_v65 h1 h2 h3).toBuf v = v := rfl

/-! ## Each stretch from an arbitrary valuation

From ANY contents `W` of the buffers that hold, at the buffers a stretch reads, the stages named on the right, the
stretch leaves at its result buffer the next stage; and it leaves alone every buffer it does not write. Each fact is
the fold of the stretch's operations at that buffer, compared with the stage's definition (one operation applied to
earlier stages). -/

theorem c1a_v3 (W : Valuation τ sig (Elt F)) (x1 : (⟨S2x1600000, .i32⟩ : BufTy).Contents (Elt F))
    (harg1 : W (Proc.devRef .tc main_arg1) = x1) :
    after c1a W (Proc.devRef .tc main_v3) = val_main_v3 (F := F) x1 := by
  after_results
  rw [harg1]
  rfl

theorem c1a_v6 (W : Valuation τ sig (Elt F)) (x1 : (⟨S2x1600000, .i32⟩ : BufTy).Contents (Elt F))
    (harg1 : W (Proc.devRef .tc main_arg1) = x1) :
    after c1a W (Proc.devRef .tc main_v6) = val_main_v6 (F := F) x1 := by
  after_results
  rw [harg1]
  rfl

theorem c1a_keep_arg0 (W : Valuation τ sig (Elt F)) : after c1a W (Proc.devRef .tc main_arg0) = W (Proc.devRef .tc main_arg0) := by after_results_simp
theorem c1a_keep_arg2 (W : Valuation τ sig (Elt F)) : after c1a W (Proc.devRef .tc main_arg2) = W (Proc.devRef .tc main_arg2) := by after_results_simp
theorem c1a_keep_arg3 (W : Valuation τ sig (Elt F)) : after c1a W (Proc.devRef .tc main_arg3) = W (Proc.devRef .tc main_arg3) := by after_results_simp
theorem c1a_keep_arg4 (W : Valuation τ sig (Elt F)) : after c1a W (Proc.devRef .tc main_arg4) = W (Proc.devRef .tc main_arg4) := by after_results_simp
theorem c1a_keep_arg5 (W : Valuation τ sig (Elt F)) : after c1a W (Proc.devRef .tc main_arg5) = W (Proc.devRef .tc main_arg5) := by after_results_simp

theorem c1b_v29 (W : Valuation τ sig (Elt F)) (x1 : (⟨S2x1600000, .i32⟩ : BufTy).Contents (Elt F))
    (hv3 : W (Proc.devRef .tc main_v3) = val_main_v3 (F := F) x1) (hv6 : W (Proc.devRef .tc main_v6) = val_main_v6 (F := F) x1) :
    after c1b W (Proc.devRef .tc main_v29) = val_main_v29 (F := F) x1 := by
  after_results_simp
  rw [hv3, hv6]
  rfl

theorem c1b_keep_arg0 (W : Valuation τ sig (Elt F)) : after c1b W (Proc.devRef .tc main_arg0) = W (Proc.devRef .tc main_arg0) := by after_results_simp
theorem c1b_keep_arg2 (W : Valuation τ sig (Elt F)) : after c1b W (Proc.devRef .tc main_arg2) = W (Proc.devRef .tc main_arg2) := by after_results_simp
theorem c1b_keep_arg3 (W : Valuation τ sig (Elt F)) : after c1b W (Proc.devRef .tc main_arg3) = W (Proc.devRef .tc main_arg3) := by after_results_simp
theorem c1b_keep_arg4 (W : Valuation τ sig (Elt F)) : after c1b W (Proc.devRef .tc main_arg4) = W (Proc.devRef .tc main_arg4) := by after_results_simp
theorem c1b_keep_arg5 (W : Valuation τ sig (Elt F)) : after c1b W (Proc.devRef .tc main_arg5) = W (Proc.devRef .tc main_arg5) := by after_results_simp
theorem c1b_keep_v3 (W : Valuation τ sig (Elt F)) : after c1b W (Proc.devRef .tc main_v3) = W (Proc.devRef .tc main_v3) := by after_results_simp
theorem c1b_keep_v6 (W : Valuation τ sig (Elt F)) : after c1b W (Proc.devRef .tc main_v6) = W (Proc.devRef .tc main_v6) := by after_results_simp

theorem c2_v43 (W : Valuation τ sig (Elt F)) (x0 : (⟨S100000x512, .f32⟩ : BufTy).Contents (Elt F)) (x1 : (⟨S2x1600000, .i32⟩ : BufTy).Contents (Elt F)) (x2 : (⟨S512x128, .f32⟩ : BufTy).Contents (Elt F))
    (harg0 : W (Proc.devRef .tc main_arg0) = x0) (harg2 : W (Proc.devRef .tc main_arg2) = x2) (hv3 : W (Proc.devRef .tc main_v3) = val_main_v3 (F := F) x1) (hv6 : W (Proc.devRef .tc main_v6) = val_main_v6 (F := F) x1) (hv29 : W (Proc.devRef .tc main_v29) = val_main_v29 (F := F) x1) :
    after c2 W (Proc.devRef .tc main_v43) = val_main_v43 (F := F) x0 x1 x2 := by
  after_results_simp
  rw [harg0, harg2, hv3, hv6, hv29]
  rfl

theorem c2_keep_arg3 (W : Valuation τ sig (Elt F)) : after c2 W (Proc.devRef .tc main_arg3) = W (Proc.devRef .tc main_arg3) := by after_results_simp
theorem c2_keep_arg4 (W : Valuation τ sig (Elt F)) : after c2 W (Proc.devRef .tc main_arg4) = W (Proc.devRef .tc main_arg4) := by after_results_simp
theorem c2_keep_arg5 (W : Valuation τ sig (Elt F)) : after c2 W (Proc.devRef .tc main_arg5) = W (Proc.devRef .tc main_arg5) := by after_results_simp
theorem c2_keep_v3 (W : Valuation τ sig (Elt F)) : after c2 W (Proc.devRef .tc main_v3) = W (Proc.devRef .tc main_v3) := by after_results_simp
theorem c2_keep_v6 (W : Valuation τ sig (Elt F)) : after c2 W (Proc.devRef .tc main_v6) = W (Proc.devRef .tc main_v6) := by after_results_simp
theorem c2_keep_v29 (W : Valuation τ sig (Elt F)) : after c2 W (Proc.devRef .tc main_v29) = W (Proc.devRef .tc main_v29) := by after_results_simp

theorem c3_v47 (W : Valuation τ sig (Elt F)) (x0 : (⟨S100000x512, .f32⟩ : BufTy).Contents (Elt F)) (x1 : (⟨S2x1600000, .i32⟩ : BufTy).Contents (Elt F)) (x2 : (⟨S512x128, .f32⟩ : BufTy).Contents (Elt F)) (x3 : (⟨S128, .f32⟩ : BufTy).Contents (Elt F))
    (harg3 : W (Proc.devRef .tc main_arg3) = x3) (hv43 : W (Proc.devRef .tc main_v43) = val_main_v43 (F := F) x0 x1 x2) :
    after c3 W (Proc.devRef .tc main_v47) = val_main_v47 (F := F) x0 x1 x2 x3 := by
  after_results_simp
  rw [harg3, hv43]
  rfl

theorem c3_keep_arg4 (W : Valuation τ sig (Elt F)) : after c3 W (Proc.devRef .tc main_arg4) = W (Proc.devRef .tc main_arg4) := by after_results_simp
theorem c3_keep_arg5 (W : Valuation τ sig (Elt F)) : after c3 W (Proc.devRef .tc main_arg5) = W (Proc.devRef .tc main_arg5) := by after_results_simp
theorem c3_keep_v3 (W : Valuation τ sig (Elt F)) : after c3 W (Proc.devRef .tc main_v3) = W (Proc.devRef .tc main_v3) := by after_results_simp
theorem c3_keep_v6 (W : Valuation τ sig (Elt F)) : after c3 W (Proc.devRef .tc main_v6) = W (Proc.devRef .tc main_v6) := by after_results_simp
theorem c3_keep_v29 (W : Valuation τ sig (Elt F)) : after c3 W (Proc.devRef .tc main_v29) = W (Proc.devRef .tc main_v29) := by after_results_simp

theorem c4_v61 (W : Valuation τ sig (Elt F)) (x0 : (⟨S100000x512, .f32⟩ : BufTy).Contents (Elt F)) (x1 : (⟨S2x1600000, .i32⟩ : BufTy).Contents (Elt F)) (x2 : (⟨S512x128, .f32⟩ : BufTy).Contents (Elt F)) (x3 : (⟨S128, .f32⟩ : BufTy).Contents (Elt F)) (x4 : (⟨S128x100, .f32⟩ : BufTy).Contents (Elt F))
    (harg4 : W (Proc.devRef .tc main_arg4) = x4) (hv3 : W (Proc.devRef .tc main_v3) = val_main_v3 (F := F) x1) (hv6 : W (Proc.devRef .tc main_v6) = val_main_v6 (F := F) x1) (hv29 : W (Proc.devRef .tc main_v29) = val_main_v29 (F := F) x1) (hv47 : W (Proc.devRef .tc main_v47) = val_main_v47 (F := F) x0 x1 x2 x3) :
    after c4 W (Proc.devRef .tc main_v61) = val_main_v61 (F := F) x0 x1 x2 x3 x4 := by
  after_results_simp
  rw [harg4, hv3, hv6, hv29, hv47]
  rfl

theorem c4_keep_arg5 (W : Valuation τ sig (Elt F)) : after c4 W (Proc.devRef .tc main_arg5) = W (Proc.devRef .tc main_arg5) := by after_results_simp

theorem c5_v65 (W : Valuation τ sig (Elt F)) (x0 : (⟨S100000x512, .f32⟩ : BufTy).Contents (Elt F)) (x1 : (⟨S2x1600000, .i32⟩ : BufTy).Contents (Elt F)) (x2 : (⟨S512x128, .f32⟩ : BufTy).Contents (Elt F)) (x3 : (⟨S128, .f32⟩ : BufTy).Contents (Elt F)) (x4 : (⟨S128x100, .f32⟩ : BufTy).Contents (Elt F)) (x5 : (⟨S100, .f32⟩ : BufTy).Contents (Elt F))
    (harg5 : W (Proc.devRef .tc main_arg5) = x5) (hv61 : W (Proc.devRef .tc main_v61) = val_main_v61 (F := F) x0 x1 x2 x3 x4) :
    after c5 W (Proc.devRef .tc main_v65) = val_main_v65 (F := F) x0 x1 x2 x3 x4 x5 := by
  after_results_simp
  simp only [ofBuf_toBuf]
  rw [out_v65, in_v64, harg5, hv61]
  rfl

/-! ## The whole run's result buffer

The stretches are chained: what each leaves at the buffers the next ones read is carried forward, a buffer a stretch
does not write keeping what it held. -/

/-- From any contents `V`, the whole operation list leaves at the result buffer the reference's last stage of the
    six arguments' contents. -/
theorem staged (V : Valuation τ sig (Elt F)) :
    after (ValueP.ops (F := F)) V (Proc.devRef .tc main_v65)
      = val_main_v65 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops_eq, after_append, after_append, after_append, after_append, after_append]
  -- after the index arrays
  have f1_v3 := c1a_v3 (F := F) V (V (Proc.devRef .tc main_arg1)) rfl
  have f1_v6 := c1a_v6 (F := F) V (V (Proc.devRef .tc main_arg1)) rfl
  have f1_arg0 := c1a_keep_arg0 (F := F) V
  have f1_arg2 := c1a_keep_arg2 (F := F) V
  have f1_arg3 := c1a_keep_arg3 (F := F) V
  have f1_arg4 := c1a_keep_arg4 (F := F) V
  have f1_arg5 := c1a_keep_arg5 (F := F) V
  -- after the edge weights
  have f2_v29 := c1b_v29 (F := F) (after c1a V) (V (Proc.devRef .tc main_arg1)) f1_v3 f1_v6
  have f2_v3 := (c1b_keep_v3 (F := F) (after c1a V)).trans f1_v3
  have f2_v6 := (c1b_keep_v6 (F := F) (after c1a V)).trans f1_v6
  have f2_arg0 := (c1b_keep_arg0 (F := F) (after c1a V)).trans f1_arg0
  have f2_arg2 := (c1b_keep_arg2 (F := F) (after c1a V)).trans f1_arg2
  have f2_arg3 := (c1b_keep_arg3 (F := F) (after c1a V)).trans f1_arg3
  have f2_arg4 := (c1b_keep_arg4 (F := F) (after c1a V)).trans f1_arg4
  have f2_arg5 := (c1b_keep_arg5 (F := F) (after c1a V)).trans f1_arg5
  -- after the first aggregation
  have f3_v43 := c2_v43 (F := F) (after c1b (after c1a V)) (V (Proc.devRef .tc main_arg0)) (V (Proc.devRef .tc main_arg1)) (V (Proc.devRef .tc main_arg2)) f2_arg0 f2_arg2 f2_v3 f2_v6 f2_v29
  have f3_v3 := (c2_keep_v3 (F := F) (after c1b (after c1a V))).trans f2_v3
  have f3_v6 := (c2_keep_v6 (F := F) (after c1b (after c1a V))).trans f2_v6
  have f3_v29 := (c2_keep_v29 (F := F) (after c1b (after c1a V))).trans f2_v29
  have f3_arg3 := (c2_keep_arg3 (F := F) (after c1b (after c1a V))).trans f2_arg3
  have f3_arg4 := (c2_keep_arg4 (F := F) (after c1b (after c1a V))).trans f2_arg4
  have f3_arg5 := (c2_keep_arg5 (F := F) (after c1b (after c1a V))).trans f2_arg5
  -- after the first bias and rectifier
  have f4_v47 := c3_v47 (F := F) (after c2 (after c1b (after c1a V))) (V (Proc.devRef .tc main_arg0)) (V (Proc.devRef .tc main_arg1)) (V (Proc.devRef .tc main_arg2)) (V (Proc.devRef .tc main_arg3)) f3_arg3 f3_v43
  have f4_v3 := (c3_keep_v3 (F := F) (after c2 (after c1b (after c1a V)))).trans f3_v3
  have f4_v6 := (c3_keep_v6 (F := F) (after c2 (after c1b (after c1a V)))).trans f3_v6
  have f4_v29 := (c3_keep_v29 (F := F) (after c2 (after c1b (after c1a V)))).trans f3_v29
  have f4_arg4 := (c3_keep_arg4 (F := F) (after c2 (after c1b (after c1a V)))).trans f3_arg4
  have f4_arg5 := (c3_keep_arg5 (F := F) (after c2 (after c1b (after c1a V)))).trans f3_arg5
  -- after the second aggregation
  have f5_v61 := c4_v61 (F := F) (after c3 (after c2 (after c1b (after c1a V)))) (V (Proc.devRef .tc main_arg0)) (V (Proc.devRef .tc main_arg1)) (V (Proc.devRef .tc main_arg2)) (V (Proc.devRef .tc main_arg3)) (V (Proc.devRef .tc main_arg4)) f4_arg4 f4_v3 f4_v6 f4_v29 f4_v47
  have f5_arg5 := (c4_keep_arg5 (F := F) (after c3 (after c2 (after c1b (after c1a V))))).trans f4_arg5
  -- the closing bias and log-softmax
  exact c5_v65 (F := F) (after c4 (after c3 (after c2 (after c1b (after c1a V))))) (V (Proc.devRef .tc main_arg0)) (V (Proc.devRef .tc main_arg1)) (V (Proc.devRef .tc main_arg2)) (V (Proc.devRef .tc main_arg3)) (V (Proc.devRef .tc main_arg4)) (V (Proc.devRef .tc main_arg5)) f5_arg5 f5_v61

/-! ## The run -/

set_option maxHeartbeats 4000000 in
/-- On every device, for any float values, from any memory with zero counters: every weakly fair execution of @main
    terminates with the result buffer at the reference's last stage of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = Cert.ReferenceIdeal.ReadP.val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (staged (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq ValueP.scopedRefs_eq ValueP.scopedSems_eq defs main (fun _ => ValueP.ops) ValueP.main_eq (fun _ => ValueP.ops_sub) m ρ)

end Cert.ReferenceIdeal.RunStaged

end
-- ==== Proof.lean ====
/-
  A two-layer graph convolution with a closing log-softmax: the kernel program against its reference.

  Both programs normalise the graph once on the host (self loops added, degrees by a scatter-add of ones, the edge
  weights as products of inverse square roots of degrees), and both run each layer as: features times weights,
  rows gathered along the edges and scaled by the edge weights, scatter-added into the destination rows, bias added.
  The first layer ends in a rectifier, the second in a row-wise log-softmax. The host operations are the same on
  both sides. The kernel program computes the four dense steps in four kernel regions, each tiling the 100000 rows
  in twenty-five blocks of 4000:
    * the two matrix products, each block's product taken into a zero accumulator after a narrowing of the operands
      that is the identity at the ideal values, so that each equals the reference's host matrix product entry by
      entry, both being ∑ κ, l (p, κ) · r (κ, q);
    * the bias add with the rectifier, max (a + b) 0 entry by entry on both sides;
    * the bias add with the log-softmax, (v q - M) - log (∑ j, exp (v j - M)) with M the row's maximum on both sides
      (the reference takes one more maximum with -∞, which changes nothing on the extended reals).
  No law of arithmetic beyond these readings is needed, so the finiteness of the inputs is never used.

  The frames of the two kernel programs are the generated ones. The kernel program's run is the same launch with the
  result buffer named (Proof/KernelRun.lean), its value traced stage by stage back to the arguments
  (Proof/KernelValue.lean over Proof/Region0 … Region3 and Proof/HostVals.lean). The reference's run is read stage by
  stage (Proof/RefRunStaged.lean), and both results are the reference's closing stage of the arguments.
-/
import proofs.«111680_j377957122204_1_alg».proof.Defs
import proofs.«111680_j377957122204_1_alg».proof.Proof.Gen.Kernel
import proofs.«111680_j377957122204_1_alg».proof.Proof.Gen.Kernel.Frame
import proofs.«111680_j377957122204_1_alg».proof.Proof.Gen.KernelIdeal
import proofs.«111680_j377957122204_1_alg».proof.Proof.Gen.KernelIdeal.Frame
import proofs.«111680_j377957122204_1_alg».proof.Proof.Gen.ReferenceIdeal
import proofs.«111680_j377957122204_1_alg».proof.Proof.Gen.Pre_finite_inputs
import proofs.«111680_j377957122204_1_alg».proof.Proof.KernelRun
import proofs.«111680_j377957122204_1_alg».proof.Proof.KernelValue
import proofs.«111680_j377957122204_1_alg».proof.Proof.RefRunStaged
import Idealize.ShloMosaic.Adequacy
import Idealize.ShloMosaic.Init

noncomputable section

namespace Cert.Proof

open Idealize.ShloMosaic Idealize.SL.Sem

/-- The kernel program as printed runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.RunStaged.run (F := Ideal) m ρ)

/-- The ideal pass rewrote nothing: the idealization is the program's own text read at the ideal values. -/
theorem preserves : Cert.preserves_Kernel_KernelIdeal := trivial

/-- From memories agreeing on the arguments both idealized programs end with the reference's closing stage of the
    arguments in their result buffers. -/
theorem algebraic : Cert.algebraic_KernelIdeal_ReferenceIdeal := by
  intro m ρ m' ρ' _ hagree
  refine ⟨fun c => Cert.ReferenceIdeal.ReadP.val_main_v65 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KVal.at_v61 m ρ c), (h c).2⟩)
      (Cert.KernelIdeal.GenRun.run_named m ρ)
  · refine (θ_run Cert.ReferenceIdeal.defs _ _).mono (fun r h c => ⟨(h c).1.trans ?_, (h c).2⟩)
      (Cert.ReferenceIdeal.RunStaged.run (F := Ideal) m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
